-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn {F : FTy → Type} [FloatOps F] (main_arg0 : FVec F S262144x64 .f32) (main_arg1 : FVec F S262144x64 .f32) (main_arg2 : FVec F S262144x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  main_v13
-- ==== Kernel.lean ====
abbrev S262144x64 : Shape := ⟨2, ![262144, 64]⟩
abbrev S64x64 : Shape := ⟨2, ![64, 64]⟩
abbrev S8192x64 : Shape := ⟨2, ![8192, 64]⟩
abbrev S2048x128x64 : Shape := ⟨3, ![2048, 128, 64]⟩
abbrev S32x128x64 : Shape := ⟨3, ![32, 128, 64]⟩
abbrev S32x128x128 : Shape := ⟨3, ![32, 128, 128]⟩
abbrev S1x64x64 : Shape := ⟨3, ![1, 64, 64]⟩
abbrev S32x64x64 : Shape := ⟨3, ![32, 64, 64]⟩

abbrev nBuf : Space → Nat
  | .hbm => 9
  | .vmem => 15
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S64x64, .f32⟩
  | .hbm, ⟨4, _⟩ => ⟨S2048x128x64, .f32⟩
  | .hbm, ⟨5, _⟩ => ⟨S2048x128x64, .f32⟩
  | .hbm, ⟨6, _⟩ => ⟨S2048x128x64, .f32⟩
  | .hbm, ⟨7, _⟩ => ⟨S2048x128x64, .f32⟩
  | .hbm, ⟨8, _⟩ => ⟨S262144x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S32x128x64, .f32⟩
  | .local _ .vmem, ⟨8, _⟩ => ⟨S32x128x64, .f32⟩
  | .local _ .vmem, ⟨9, _⟩ => ⟨S32x128x64, .f32⟩
  | .local _ .vmem, ⟨10, _⟩ => ⟨S32x128x64, .f32⟩
  | .local _ .vmem, ⟨11, _⟩ => ⟨S32x128x64, .f32⟩
  | .local _ .vmem, ⟨12, _⟩ => ⟨S32x128x64, .f32⟩
  | .local _ .vmem, ⟨13, _⟩ => ⟨S32x128x64, .f32⟩
  | .local _ .vmem, ⟨14, _⟩ => ⟨S32x128x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  shapeCasts_S262144x64_S2048x128x64 : S262144x64.ShapeCasts S2048x128x64
  inb_S32x128x64_S32x128x64_0_0_0 : ∀ a, (![0, 0, 0] : Fin 3 → Nat) a + S32x128x64.size a ≤ S32x128x64.size a
  h_S32x128x64 : 0 < S32x128x64.numel
  shapeCasts_S32x128x64_S32x128x64 : S32x128x64.ShapeCasts S32x128x64
  shapeCasts_S64x64_S1x64x64 : S64x64.ShapeCasts S1x64x64
  shapeCasts_S1x64x64_S1x64x64 : S1x64x64.ShapeCasts S1x64x64
  broadcasts_S1x64x64_S32x64x64 : S1x64x64.Broadcasts S32x64x64
  shapeCasts_S2048x128x64_S262144x64 : S2048x128x64.ShapeCasts S262144x64
  dot_S8192x64_S8192x64_S64x64_0_0_1_1_n_n_wf : DotDims.WF S8192x64 S8192x64 S64x64 [0] [0] [1] [1] [] []
  dot_S32x128x64_S32x128x64_S32x128x128_2_2_1_1_0_0_wf : DotDims.WF S32x128x64 S32x128x64 S32x128x128 [2] [2] [1] [1] [0] [0]
  dot_S32x128x128_S32x128x64_S32x128x64_2_1_1_2_0_0_wf : DotDims.WF S32x128x128 S32x128x64 S32x128x64 [2] [1] [1] [2] [0] [0]
  dot_S32x128x64_S32x64x64_S32x128x64_2_1_1_2_0_0_wf : DotDims.WF S32x128x64 S32x64x64 S32x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x64.size a ≤ S64x64.size a
  hwx1_0 : ∀ i : grid1.Coords, EltTy.bits .f32 = 32 ∨ (Rect.block (s := S64x64) S64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x64.size a ≤ S2048x128x64.size a
  hwx1_1 : ∀ i : grid1.Coords, EltTy.bits .f32 = 32 ∨ (Rect.block (s := S2048x128x64) S32x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x64.size a ≤ S2048x128x64.size a
  hwx1_2 : ∀ i : grid1.Coords, EltTy.bits .f32 = 32 ∨ (Rect.block (s := S2048x128x64) S32x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128x64.size a ≤ S2048x128x64.size a
  hwx1_3 : ∀ i : grid1.Coords, EltTy.bits .f32 = 32 ∨ (Rect.block (s := S2048x128x64) S32x128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128x64.size a ≤ S2048x128x64.size a
  hwx1_4 : ∀ i : grid1.Coords, EltTy.bits .f32 = 32 ∨ (Rect.block (s := S2048x128x64) S32x128x64.size (cc1_transform_4 i) (hinb1_4 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf
def dot_S32x128x64_S32x128x64_S32x128x128_2_2_1_1_0_0 : DotDims S32x128x64 S32x128x64 S32x128x128 where
  lhsContracting := [2]
  rhsContracting := [2]
  lhsNonContracting := [1]
  rhsNonContracting := [1]
  lhsBatch := [0]
  rhsBatch := [0]
  wf := dot_S32x128x64_S32x128x64_S32x128x128_2_2_1_1_0_0_wf
def dot_S32x128x128_S32x128x64_S32x128x64_2_1_1_2_0_0 : DotDims S32x128x128 S32x128x64 S32x128x64 where
  lhsContracting := [2]
  rhsContracting := [1]
  lhsNonContracting := [1]
  rhsNonContracting := [2]
  lhsBatch := [0]
  rhsBatch := [0]
  wf := dot_S32x128x128_S32x128x64_S32x128x64_2_1_1_2_0_0_wf
def dot_S32x128x64_S32x64x64_S32x128x64_2_1_1_2_0_0 : DotDims S32x128x64 S32x64x64 S32x128x64 where
  lhsContracting := [2]
  rhsContracting := [1]
  lhsNonContracting := [1]
  rhsNonContracting := [2]
  lhsBatch := [0]
  rhsBatch := [0]
  wf := dot_S32x128x64_S32x64x64_S32x128x64_2_1_1_2_0_0_wf

abbrev win0_0 : Pipeline.Window sig grid0 :=
  Pipeline.Window.ofSpec (Memref.whole main_arg1) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S64x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x128x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S32x128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S262144x64 : Shape := ⟨2, ![262144, 64]⟩
abbrev S2048x128x64 : Shape := ⟨3, ![2048, 128, 64]⟩
abbrev S2048x128x128 : Shape := ⟨3, ![2048, 128, 128]⟩
abbrev S64x64 : Shape := ⟨2, ![64, 64]⟩

abbrev nBuf : Space → Nat
  | .hbm => 11
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S2048x128x64, .f32⟩
  | .hbm, ⟨4, _⟩ => ⟨S2048x128x64, .f32⟩
  | .hbm, ⟨5, _⟩ => ⟨S2048x128x64, .f32⟩
  | .hbm, ⟨6, _⟩ => ⟨S2048x128x128, .f32⟩
  | .hbm, ⟨7, _⟩ => ⟨S2048x128x64, .f32⟩
  | .hbm, ⟨8, _⟩ => ⟨S262144x64, .f32⟩
  | .hbm, ⟨9, _⟩ => ⟨S64x64, .f32⟩
  | .hbm, ⟨10, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S262144x64_S2048x128x64 : S262144x64.ShapeCasts S2048x128x64
  shapeCasts_S2048x128x64_S262144x64 : S2048x128x64.ShapeCasts S262144x64
  dot_S2048x128x64_S2048x128x64_S2048x128x128_2_2_1_1_0_0_wf : DotDims.WF S2048x128x64 S2048x128x64 S2048x128x128 [2] [2] [1] [1] [0] [0]
  dot_S2048x128x128_S2048x128x64_S2048x128x64_2_1_1_2_0_0_wf : DotDims.WF S2048x128x128 S2048x128x64 S2048x128x64 [2] [1] [1] [2] [0] [0]
  dot_S262144x64_S262144x64_S64x64_0_0_1_1_n_n_wf : DotDims.WF S262144x64 S262144x64 S64x64 [0] [0] [1] [1] [] []
  dot_S262144x64_S64x64_S262144x64_1_0_0_1_n_n_wf : DotDims.WF S262144x64 S64x64 S262144x64 [1] [0] [0] [1] [] []

variable [Facts₀]

def dot_S2048x128x64_S2048x128x64_S2048x128x128_2_2_1_1_0_0 : DotDims S2048x128x64 S2048x128x64 S2048x128x128 where
  lhsContracting := [2]
  rhsContracting := [2]
  lhsNonContracting := [1]
  rhsNonContracting := [1]
  lhsBatch := [0]
  rhsBatch := [0]
  wf := dot_S2048x128x64_S2048x128x64_S2048x128x128_2_2_1_1_0_0_wf
def dot_S2048x128x128_S2048x128x64_S2048x128x64_2_1_1_2_0_0 : DotDims S2048x128x128 S2048x128x64 S2048x128x64 where
  lhsContracting := [2]
  rhsContracting := [1]
  lhsNonContracting := [1]
  rhsNonContracting := [2]
  lhsBatch := [0]
  rhsBatch := [0]
  wf := dot_S2048x128x128_S2048x128x64_S2048x128x64_2_1_1_2_0_0_wf
def dot_S262144x64_S262144x64_S64x64_0_0_1_1_n_n : DotDims S262144x64 S262144x64 S64x64 where
  lhsContracting := [0]
  rhsContracting := [0]
  lhsNonContracting := [1]
  rhsNonContracting := [1]
  lhsBatch := []
  rhsBatch := []
  wf := dot_S262144x64_S262144x64_S64x64_0_0_1_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf

class Facts : Prop extends Facts₀ where

variable [Facts]
-- ==== Proof.K.Reg0.lean ====
/-
  The first pallas_call (the global state S = Vᵀ K, accumulated over 32 grid points of 8192 rows each), at the
  buffer contents `V` its region is entered with. A 64 × 64 scratch carries the running sum from point to point:
  the first point stores zeros into it before adding its block's product, every later point adds its block's
  product to what the point before left, and the last point copies the scratch into the output window, which
  is written back there and nowhere else.
-/
import proofs.«104029_j52544629900005_1_alg».proof.Proof.Gen.Kernel.Launch
import proofs.«104029_j52544629900005_1_alg».proof.Proof.Gen.Kernel.Skeleton
import proofs.«104029_j52544629900005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "This is the first point" (the reset of the scratch), as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point" (the copy of the scratch into the output window), as the body computes it. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- The inputs are never idle; the output window is idle, and not written back, at every point but the last. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## What a point leaves in the scratch -/

/-- The scratch after a point that found `a` in it and blocks `k`, `v` in the input windows: `a` plus the product. -/
def step0 (a : Vec F S64x64 .f32) (k v : Vec F S8192x64 .f32) : Vec F S64x64 .f32 := k0_pay2 k v a
/-- What the first point stores into the scratch before it adds: zeros. -/
def zero0 : Vec F S64x64 .f32 := k0_pay1

/-- THE RUNNING SUM: the scratch after point `n`. -/
def acc0 (c : Dev nD) : (n : ℕ) → n < cfg0.N → Vec F S64x64 .f32
  | 0, hn => step0 zero0 (iblk0 V c 0 ⟨0, hn⟩) (iblk0 V c 1 ⟨0, hn⟩)
  | n + 1, hn => step0 (acc0 c n (Nat.lt_of_succ_lt hn)) (iblk0 V c 0 ⟨n + 1, hn⟩) (iblk0 V c 1 ⟨n + 1, hn⟩)

theorem acc0_zero (c : Dev nD) (t : Fin cfg0.N) (h : t.val = 0) :
    acc0 V c t.val t.isLt = step0 zero0 (iblk0 V c 0 t) (iblk0 V c 1 t) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = step0 (acc0 V c (t.val - 1) (Nat.lt_of_le_of_lt (Nat.sub_le _ _) t.isLt)) (iblk0 V c 0 t) (iblk0 V c 1 t) := by
  obtain ⟨n, hn⟩ := t
  cases n with
  | zero => exact absurd rfl h
  | succ n => rfl

/-! ## The body's accesses: every load and store takes a whole buffer -/

abbrev rS : Rect S64x64 := Rect.unit (s := S64x64) ![0, 0] S64x64.size inb_S64x64_S64x64_0_0
abbrev rK : Rect S8192x64 := Rect.unit (s := S8192x64) ![0, 0] S8192x64.size inb_S8192x64_S8192x64_0_0
theorem hz2 : (![0, 0] : Fin 2 → ℕ) = fun _ => 0 := by funext a; fin_cases a <;> rfl

/-- A store of the whole 64 × 64 buffer, last, covers it. -/
theorem cover_rS (p : Vec F S64x64 .f32) (L : List (View.Piece (Elt F) S64x64 .f32)) (y : S64x64.Idx) :
    ∃ pc ∈ ((⟨rS, p⟩ : View.Piece (Elt F) S64x64 .f32) :: L), y ∈ pc.1.set :=
  ⟨_, List.mem_cons_self, View.mem_set_unit_zero hz2 inb_S64x64_S64x64_0_0 y⟩

/-- The scratch operand, and the other scoped buffers of the core that are no staging buffer of this pallas_call
    (the second pallas_call's staging buffers), each at some contents. -/
abbrev scM : Memref sig .tc .vmem S64x64 .f32 := Memref.whole cc0_scratch0
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's plain invariant with the scratch split off as a memref owned at some contents. -/
theorem PhiA0_eq (c : Dev nD) :
    (Pipeline.ΦA spec0 c : sProp 𝕄)
      = iprop(((∃ d, owns (c : Thread nD τ) scM fullShare d) ∗ restOther c) ∗ (∃ r, prngReg c r)) := by
  unfold Pipeline.ΦA restOther; rw [scopedRest0_eq]; simp only [scM, owns_whole]; rfl

/-! ## The body's triples, one per case of its two conditions -/

set_option maxHeartbeats 1000000 in
/-- The first point: the scratch, found at anything, ends at the zeros plus the product; the output window untouched. -/
theorem sound0_A (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S64x64 .f32) (harg3 : arg3.IsWhole)
    (arg4 : Memref sig .tc .vmem S64x64 .f32) (harg4 : arg4.IsWhole) (hc0 : cond0_0 i) (hc1 : ¬cond0_1 i)
    (k v : Vec F S8192x64 .f32) (x3 : Vec F S64x64 .f32) (K : PUnit → sProp 𝕄) :
    iprop(owns (c : Thread nD τ) arg1 fullShare k ∗ owns (c : Thread nD τ) arg2 fullShare v ∗ owns (c : Thread nD τ) arg3 fullShare x3
        ∗ (∃ a, owns (c : Thread nD τ) arg4 fullShare a)
        ∗ (iprop(owns (c : Thread nD τ) arg1 fullShare k ∗ owns (c : Thread nD τ) arg2 fullShare v ∗ owns (c : Thread nD τ) arg3 fullShare x3
            ∗ owns (c : Thread nD τ) arg4 fullShare (step0 zero0 k v)) -∗ K ⟨⟩))
      ⊢ wp frame (wpE (defs₀ (F := F)) Variants.none c none) E (cc0__s_kernel i arg1 harg1 arg2 harg2 arg3 harg3 arg4 harg4) K := by
  simp only [cc0__s_kernel_eq_skeleton]; unfold cc0__s_kernel_skel
  unfold owns
  iintro ⟨⟨%f1, %hf1, H1⟩, ⟨%f2, %hf2, H2⟩, ⟨%f3, %hf3, H3⟩, ⟨%a, %f4, %hf4, H4⟩, Hk⟩
  subst hf1; subst hf2
  sl_exec (disch := first | exact hc0 | exact hc1)
  sl_step
  sl_unfold_words
  iapply Hk
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (cover_rS _ _),
    View.canon_cons_unit_zero hz2, View.readCov_unit_zero _ hz2]
  show k0_pay2 (View.ld (arg1.view.read (Elt F) f1) rK) (View.ld (arg2.view.read (Elt F) f2) rK) k0_pay1 = _
  rw [View.ld_unit_zero hz2, View.ld_unit_zero hz2]
  rfl

set_option maxHeartbeats 1000000 in
/-- A middle point: the scratch, found at `a`, ends at `a` plus the product; the output window untouched. -/
theorem sound0_B (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S64x64 .f32) (harg3 : arg3.IsWhole)
    (arg4 : Memref sig .tc .vmem S64x64 .f32) (harg4 : arg4.IsWhole) (hc0 : ¬cond0_0 i) (hc1 : ¬cond0_1 i)
    (k v : Vec F S8192x64 .f32) (x3 a : Vec F S64x64 .f32) (K : PUnit → sProp 𝕄) :
    iprop(owns (c : Thread nD τ) arg1 fullShare k ∗ owns (c : Thread nD τ) arg2 fullShare v ∗ owns (c : Thread nD τ) arg3 fullShare x3
        ∗ owns (c : Thread nD τ) arg4 fullShare a
        ∗ (iprop(owns (c : Thread nD τ) arg1 fullShare k ∗ owns (c : Thread nD τ) arg2 fullShare v ∗ owns (c : Thread nD τ) arg3 fullShare x3
            ∗ owns (c : Thread nD τ) arg4 fullShare (step0 a k v)) -∗ K ⟨⟩))
      ⊢ wp frame (wpE (defs₀ (F := F)) Variants.none c none) E (cc0__s_kernel i arg1 harg1 arg2 harg2 arg3 harg3 arg4 harg4) K := by
  simp only [cc0__s_kernel_eq_skeleton]; unfold cc0__s_kernel_skel
  unfold owns
  iintro ⟨⟨%f1, %hf1, H1⟩, ⟨%f2, %hf2, H2⟩, ⟨%f3, %hf3, H3⟩, ⟨%f4, %hf4, H4⟩, Hk⟩
  subst hf1; subst hf2; subst hf4
  sl_exec (disch := first | exact hc0 | exact hc1)
  sl_step
  sl_unfold_words
  iapply Hk
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (cover_rS _ _),
    View.canon_unit_zero hz2]
  show k0_pay2 (View.ld (arg1.view.read (Elt F) f1) rK) (View.ld (arg2.view.read (Elt F) f2) rK) (View.ld (arg4.view.read (Elt F) f4) rS) = _
  rw [View.ld_unit_zero hz2, View.ld_unit_zero hz2, View.ld_unit_zero hz2]
  rfl

set_option maxHeartbeats 1000000 in
/-- The last point: the scratch, found at `a`, ends at `a` plus the product, and so does the output window. -/
theorem sound0_C (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S64x64 .f32) (harg3 : arg3.IsWhole)
    (arg4 : Memref sig .tc .vmem S64x64 .f32) (harg4 : arg4.IsWhole) (hc0 : ¬cond0_0 i) (hc1 : cond0_1 i)
    (k v : Vec F S8192x64 .f32) (a : Vec F S64x64 .f32) (K : PUnit → sProp 𝕄) :
    iprop(owns (c : Thread nD τ) arg1 fullShare k ∗ owns (c : Thread nD τ) arg2 fullShare v ∗ (∃ d, owns (c : Thread nD τ) arg3 fullShare d)
        ∗ owns (c : Thread nD τ) arg4 fullShare a
        ∗ (iprop(owns (c : Thread nD τ) arg1 fullShare k ∗ owns (c : Thread nD τ) arg2 fullShare v ∗ owns (c : Thread nD τ) arg3 fullShare (step0 a k v)
            ∗ owns (c : Thread nD τ) arg4 fullShare (step0 a k v)) -∗ K ⟨⟩))
      ⊢ wp frame (wpE (defs₀ (F := F)) Variants.none c none) E (cc0__s_kernel i arg1 harg1 arg2 harg2 arg3 harg3 arg4 harg4) K := by
  simp only [cc0__s_kernel_eq_skeleton]; unfold cc0__s_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc0 | exact hc1)
  sl_step
  sl_unfold_words
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_rS _ _),
      View.canon_unit_zero hz2, View.readCov_unit_zero _ hz2]
    show k0_pay2 (View.ld (arg1.view.read (Elt F) f1) rK) (View.ld (arg2.view.read (Elt F) f2) rK) (View.ld (arg4.view.read (Elt F) f4) rS) = _
    rw [View.ld_unit_zero hz2, View.ld_unit_zero hz2, View.ld_unit_zero hz2]
    rfl
  iexists _; isplitr
  swap; · iexact H4
  ipureintro
  rw [View.read_writes_eq_canon _ _ _ (cover_rS _ _),
    View.canon_unit_zero hz2]
  show k0_pay2 (View.ld (arg1.view.read (Elt F) f1) rK) (View.ld (arg2.view.read (Elt F) f2) rK) (View.ld (arg4.view.read (Elt F) f4) rS) = _
  rw [View.ld_unit_zero hz2, View.ld_unit_zero hz2, View.ld_unit_zero hz2]
  rfl

end Cert.Kernel.Fr

end
-- ==== Proof.K.Obl0.lean ====
/-
  The first pallas_call's proof data and body obligation: between points the scratch holds the running sum
  (before the first point it holds anything), and the body at each point — first, middle or last — takes the
  invariant from one point to the next.
-/
import proofs.«104029_j52544629900005_1_alg».proof.Proof.K.Reg0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- Before position `n`: at the start the region's plain invariant (the scratch at anything); afterwards the scratch at
    the running sum the point before left, the other scoped buffers and the generator register at anything. -/
def PhiS (c : Dev nD) : (n : ℕ) → n ≤ cfg0.N → sProp 𝕄
  | 0, _ => Pipeline.ΦA spec0 c
  | n + 1, hn => iprop((owns (c : Thread nD τ) scM fullShare (acc0 V c n hn) ∗ restOther c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc0 V c n hn) ∗ restOther c) ∗ (∃ r, prngReg c r)) := rfl

theorem PhiS_pos (c : Dev nD) (n : ℕ) (h : n ≤ cfg0.N) (hz : n ≠ 0) :
    PhiS V c n h = iprop((owns (c : Thread nD τ) scM fullShare (acc0 V c (n - 1) (by omega)) ∗ restOther c) ∗ (∃ r, prngReg c r)) := by
  cases n with
  | zero => exact absurd rfl hz
  | succ n => rfl

/-! ## The proof data -/

/-- The arrays as the region finds them; after the body each input's buffer at its block and the output's at the
    running sum (consulted at the last point only: elsewhere the window is idle and not written back); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: which of the three cases the point is in is decided by its position; the invariant hands the
    body the scratch at what the point before left (at anything at the first point) and takes it back at this point's sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_zero V c t h0]
    rw [PhiS_castSucc V c t, PhiS_zero V c _ _ h0, PhiA0_eq]
    iintro ⟨⟨⟨HS, Hr⟩, Hg⟩, Ho, ⟨%d0, H0⟩, ⟨%d1, H1⟩, ⟨%d2, H2⟩⟩
    iapply (sound0_A c Set.univ (grid0.coords t) _ _ _ _ _ _ _ _ hc0 hc1 (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists d2; iexact H2
  · by_cases h1 : t.val = 31
    · have hc0 : ¬cond0_0 (grid0.coords t) := fun h => h0 ((hcond0_0 t).mp h)
      have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [acc0_pos V c t h0]
      rw [PhiS_castSucc V c t, PhiS_pos V c _ _ h0]
      iintro ⟨⟨⟨HS, Hr⟩, Hg⟩, Ho, ⟨%d0, H0⟩, ⟨%d1, H1⟩, ⟨%d2, H2⟩⟩
      iapply (sound0_C c Set.univ (grid0.coords t) _ _ _ _ _ _ _ _ hc0 hc1 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 2 t (idleAt0_2 t hc1) (noFlush0_2 t hc1)]
      rw [acc0_pos V c t h0]
      rw [PhiS_castSucc V c t, PhiS_pos V c _ _ h0]
      iintro ⟨⟨⟨HS, Hr⟩, Hg⟩, Ho, ⟨%d0, H0⟩, ⟨%d1, H1⟩, ⟨%d2, H2⟩⟩
      iapply (sound0_B c Set.univ (grid0.coords t) _ _ _ _ _ _ _ _ hc0 hc1 (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitl [HS Hr]
  · isplitl [HS]; · iexists _; iexact HS
    iexact Hr
  iexact Hg

end Cert.Kernel.Fr

end
-- ==== Proof.K.Reg1.lean ====
/-
  The second pallas_call (the per-trunk attention followed by the product with the global state), at the
  buffer contents `V` its region is entered with. Each grid point `t` takes trunks `32 t … 32 t + 31`:
  the three blocks of the reshaped Q, K, V and the whole 64 × 64 state; it leaves in the output block the
  three chained matrix products of those. Nothing is carried from point to point.
-/
import proofs.«104029_j52544629900005_1_alg».proof.Proof.Gen.Kernel.Launch
import proofs.«104029_j52544629900005_1_alg».proof.Proof.Gen.Kernel.Skeleton
import proofs.«104029_j52544629900005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the state's
    window is fetched once: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rS1 : Rect S64x64 := Rect.unit (s := S64x64) ![0, 0] S64x64.size inb_S64x64_S64x64_0_0
abbrev rB1 : Rect S32x128x64 := Rect.unit (s := S32x128x64) ![0, 0, 0] S32x128x64.size inb_S32x128x64_S32x128x64_0_0_0

/-- What the body leaves in the output window's buffer, from the state `s` and the blocks `q`, `k`, `v`:
    its one store, of the chained products. -/
def out1_4 (s : Vec F S64x64 .f32) (q k v : Vec F S32x128x64 .f32) : Vec F S32x128x64 .f32 :=
  View.canon [⟨rB1, k1_pay1 (View.ld q rB1) (View.ld k rB1) (View.ld v rB1) (View.ld s rS1)⟩]

/-- The store covers the buffer. -/
theorem cover1_4 (p0 : Vec F S32x128x64 .f32) (y : S32x128x64.Idx) :
    ∃ pc ∈ ([⟨rB1, p0⟩] : List (View.Piece (Elt F) S32x128x64 .f32)), y ∈ pc.1.set :=
  View.cover_of_tiled [⟨rB1, p0⟩] S32x128x64.size (by rfl) y

/-! ## The body's triple -/

set_option maxHeartbeats 1000000 in
/-- On whole staging memrefs, the inputs' at contents `s`, `q`, `k`, `v` and the output's at anything, the body runs
    to the continuation holding the inputs' as they were and the output's at `out1_4`. -/
theorem sound_kernel1 (c : Dev nD) (E : Set ℕ) (i : grid1.Coords) (arg1 : Memref sig .tc .vmem S64x64 .f32) (harg1 : arg1.IsWhole)
    (arg2 : Memref sig .tc .vmem S32x128x64 .f32) (harg2 : arg2.IsWhole) (arg3 : Memref sig .tc .vmem S32x128x64 .f32) (harg3 : arg3.IsWhole)
    (arg4 : Memref sig .tc .vmem S32x128x64 .f32) (harg4 : arg4.IsWhole) (arg5 : Memref sig .tc .vmem S32x128x64 .f32) (harg5 : arg5.IsWhole)
    (s : Vec F S64x64 .f32) (q k v : Vec F S32x128x64 .f32) (K : PUnit → sProp 𝕄) :
    iprop(owns (c : Thread nD τ) arg1 fullShare s ∗ owns (c : Thread nD τ) arg2 fullShare q ∗ owns (c : Thread nD τ) arg3 fullShare k
        ∗ owns (c : Thread nD τ) arg4 fullShare v ∗ (∃ d, owns (c : Thread nD τ) arg5 fullShare d)
        ∗ (iprop(owns (c : Thread nD τ) arg1 fullShare s ∗ owns (c : Thread nD τ) arg2 fullShare q ∗ owns (c : Thread nD τ) arg3 fullShare k
            ∗ owns (c : Thread nD τ) arg4 fullShare v ∗ owns (c : Thread nD τ) arg5 fullShare (out1_4 s q k v)) -∗ K ⟨⟩))
      ⊢ wp frame (wpE (defs₀ (F := F)) Variants.none c none) E (cc1__main_kernel i arg1 harg1 arg2 harg2 arg3 harg3 arg4 harg4 arg5 harg5) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

/-! ## The proof data -/

/-- The proof data of this pallas_call on core `c`: the arrays as the region finds them; after the body each input's
    buffer at its block and the output's at `out1_4` of the input blocks; between points only the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The whole run of @main: the first pallas_call entered from the launch memory, three reshapes, the second
  pallas_call, one reshape. The contents of every unscoped buffer at each boundary are a fold from the launch memory
  (`W0` … `W4`): a pallas_call leaves its arrays at what its write-backs leave, a reshape line at the reshaped operand.
  Every weakly fair execution terminates with every unscoped buffer at `W4`; no line and no pallas_call writes an
  argument array, so the arguments end as launched.
-/
import proofs.«104029_j52544629900005_1_alg».proof.Proof.K.Obl0
import proofs.«104029_j52544629900005_1_alg».proof.Proof.K.Reg1
import proofs.«104029_j52544629900005_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first pallas_call's entry). -/
abbrev W0 : Dev nD → Valuation τ sig (Elt F) := fun c b => m ((c : Dev nD), b)
abbrev E0 : (c : Dev nD) → (b : Ref sig .tc) → Buf (Elt F) ((c : Thread nD τ).loc b) := fun c b => W0 m c b
/-- After the first pallas_call: its arrays at what its write-backs leave, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the three reshapes (the second pallas_call's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After the second pallas_call. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)
/-- After the last reshape (the end). -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (E0 m) c).arrAt_in 0 rfl _).trans (A_eq0 (E0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (E0 m) c).arrAt_in 1 rfl _).trans (A_eq0 (E0 m) c 1))
    _ = m ((c : Thread nD τ).loc main_arg2) := rfl

/-! ## The proof data family and the thread state -/

abbrev adm' : (p : Fin 2) → (pcfgs (F := F) p).Adm := fun p => (cfgs p).toPCfg_adm
/-- Each pallas_call's proof data at its region's entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The pallas_calls as segments -/

set_option backward.isDefEq.respectTransparency.types false in
/-- The first pallas_call over the thread state: entered from every unscoped buffer at `W0`, left at `W1`. The
    generator register and the scoped rest go into the region's invariant (which then tracks the scratch) and come back. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Fr

end
-- ==== Proof.KI.Reg0.lean ====
/-
  The first pallas_call (the global state S = Vᵀ K, accumulated over 32 grid points of 8192 rows each), at the
  buffer contents `V` its region is entered with. A 64 × 64 scratch carries the running sum from point to point:
  the first point stores zeros into it before adding its block's product, every later point adds its block's
  product to what the point before left, and the last point copies the scratch into the output window, which
  is written back there and nowhere else.
-/
import proofs.«104029_j52544629900005_1_alg».proof.Proof.Gen.KernelIdeal.Launch
import proofs.«104029_j52544629900005_1_alg».proof.Proof.Gen.KernelIdeal.Skeleton
import proofs.«104029_j52544629900005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "This is the first point" (the reset of the scratch), as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point" (the copy of the scratch into the output window), as the body computes it. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- The inputs are never idle; the output window is idle, and not written back, at every point but the last. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## What a point leaves in the scratch -/

/-- The scratch after a point that found `a` in it and blocks `k`, `v` in the input windows: `a` plus the product. -/
def step0 (a : Vec F S64x64 .f32) (k v : Vec F S8192x64 .f32) : Vec F S64x64 .f32 := k0_pay2 k v a
/-- What the first point stores into the scratch before it adds: zeros. -/
def zero0 : Vec F S64x64 .f32 := k0_pay1

/-- THE RUNNING SUM: the scratch after point `n`. -/
def acc0 (c : Dev nD) : (n : ℕ) → n < cfg0.N → Vec F S64x64 .f32
  | 0, hn => step0 zero0 (iblk0 V c 0 ⟨0, hn⟩) (iblk0 V c 1 ⟨0, hn⟩)
  | n + 1, hn => step0 (acc0 c n (Nat.lt_of_succ_lt hn)) (iblk0 V c 0 ⟨n + 1, hn⟩) (iblk0 V c 1 ⟨n + 1, hn⟩)

theorem acc0_zero (c : Dev nD) (t : Fin cfg0.N) (h : t.val = 0) :
    acc0 V c t.val t.isLt = step0 zero0 (iblk0 V c 0 t) (iblk0 V c 1 t) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = step0 (acc0 V c (t.val - 1) (Nat.lt_of_le_of_lt (Nat.sub_le _ _) t.isLt)) (iblk0 V c 0 t) (iblk0 V c 1 t) := by
  obtain ⟨n, hn⟩ := t
  cases n with
  | zero => exact absurd rfl h
  | succ n => rfl

/-! ## The body's accesses: every load and store takes a whole buffer -/

abbrev rS : Rect S64x64 := Rect.unit (s := S64x64) ![0, 0] S64x64.size inb_S64x64_S64x64_0_0
abbrev rK : Rect S8192x64 := Rect.unit (s := S8192x64) ![0, 0] S8192x64.size inb_S8192x64_S8192x64_0_0
theorem hz2 : (![0, 0] : Fin 2 → ℕ) = fun _ => 0 := by funext a; fin_cases a <;> rfl

/-- A store of the whole 64 × 64 buffer, last, covers it. -/
theorem cover_rS (p : Vec F S64x64 .f32) (L : List (View.Piece (Elt F) S64x64 .f32)) (y : S64x64.Idx) :
    ∃ pc ∈ ((⟨rS, p⟩ : View.Piece (Elt F) S64x64 .f32) :: L), y ∈ pc.1.set :=
  ⟨_, List.mem_cons_self, View.mem_set_unit_zero hz2 inb_S64x64_S64x64_0_0 y⟩

/-- The scratch operand, and the other scoped buffers of the core that are no staging buffer of this pallas_call
    (the second pallas_call's staging buffers), each at some contents. -/
abbrev scM : Memref sig .tc .vmem S64x64 .f32 := Memref.whole cc0_scratch0
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's plain invariant with the scratch split off as a memref owned at some contents. -/
theorem PhiA0_eq (c : Dev nD) :
    (Pipeline.ΦA spec0 c : sProp 𝕄)
      = iprop(((∃ d, owns (c : Thread nD τ) scM fullShare d) ∗ restOther c) ∗ (∃ r, prngReg c r)) := by
  unfold Pipeline.ΦA restOther; rw [scopedRest0_eq]; simp only [scM, owns_whole]; rfl

/-! ## The body's triples, one per case of its two conditions -/

set_option maxHeartbeats 1000000 in
/-- The first point: the scratch, found at anything, ends at the zeros plus the product; the output window untouched. -/
theorem sound0_A (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S64x64 .f32) (harg3 : arg3.IsWhole)
    (arg4 : Memref sig .tc .vmem S64x64 .f32) (harg4 : arg4.IsWhole) (hc0 : cond0_0 i) (hc1 : ¬cond0_1 i)
    (k v : Vec F S8192x64 .f32) (x3 : Vec F S64x64 .f32) (K : PUnit → sProp 𝕄) :
    iprop(owns (c : Thread nD τ) arg1 fullShare k ∗ owns (c : Thread nD τ) arg2 fullShare v ∗ owns (c : Thread nD τ) arg3 fullShare x3
        ∗ (∃ a, owns (c : Thread nD τ) arg4 fullShare a)
        ∗ (iprop(owns (c : Thread nD τ) arg1 fullShare k ∗ owns (c : Thread nD τ) arg2 fullShare v ∗ owns (c : Thread nD τ) arg3 fullShare x3
            ∗ owns (c : Thread nD τ) arg4 fullShare (step0 zero0 k v)) -∗ K ⟨⟩))
      ⊢ wp frame (wpE (defs₀ (F := F)) Variants.none c none) E (cc0__s_kernel i arg1 harg1 arg2 harg2 arg3 harg3 arg4 harg4) K := by
  simp only [cc0__s_kernel_eq_skeleton]; unfold cc0__s_kernel_skel
  unfold owns
  iintro ⟨⟨%f1, %hf1, H1⟩, ⟨%f2, %hf2, H2⟩, ⟨%f3, %hf3, H3⟩, ⟨%a, %f4, %hf4, H4⟩, Hk⟩
  subst hf1; subst hf2
  sl_exec (disch := first | exact hc0 | exact hc1)
  sl_step
  sl_unfold_words
  iapply Hk
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (cover_rS _ _),
    View.canon_cons_unit_zero hz2, View.readCov_unit_zero _ hz2]
  show k0_pay2 (View.ld (arg1.view.read (Elt F) f1) rK) (View.ld (arg2.view.read (Elt F) f2) rK) k0_pay1 = _
  rw [View.ld_unit_zero hz2, View.ld_unit_zero hz2]
  rfl

set_option maxHeartbeats 1000000 in
/-- A middle point: the scratch, found at `a`, ends at `a` plus the product; the output window untouched. -/
theorem sound0_B (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S64x64 .f32) (harg3 : arg3.IsWhole)
    (arg4 : Memref sig .tc .vmem S64x64 .f32) (harg4 : arg4.IsWhole) (hc0 : ¬cond0_0 i) (hc1 : ¬cond0_1 i)
    (k v : Vec F S8192x64 .f32) (x3 a : Vec F S64x64 .f32) (K : PUnit → sProp 𝕄) :
    iprop(owns (c : Thread nD τ) arg1 fullShare k ∗ owns (c : Thread nD τ) arg2 fullShare v ∗ owns (c : Thread nD τ) arg3 fullShare x3
        ∗ owns (c : Thread nD τ) arg4 fullShare a
        ∗ (iprop(owns (c : Thread nD τ) arg1 fullShare k ∗ owns (c : Thread nD τ) arg2 fullShare v ∗ owns (c : Thread nD τ) arg3 fullShare x3
            ∗ owns (c : Thread nD τ) arg4 fullShare (step0 a k v)) -∗ K ⟨⟩))
      ⊢ wp frame (wpE (defs₀ (F := F)) Variants.none c none) E (cc0__s_kernel i arg1 harg1 arg2 harg2 arg3 harg3 arg4 harg4) K := by
  simp only [cc0__s_kernel_eq_skeleton]; unfold cc0__s_kernel_skel
  unfold owns
  iintro ⟨⟨%f1, %hf1, H1⟩, ⟨%f2, %hf2, H2⟩, ⟨%f3, %hf3, H3⟩, ⟨%f4, %hf4, H4⟩, Hk⟩
  subst hf1; subst hf2; subst hf4
  sl_exec (disch := first | exact hc0 | exact hc1)
  sl_step
  sl_unfold_words
  iapply Hk
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (cover_rS _ _),
    View.canon_unit_zero hz2]
  show k0_pay2 (View.ld (arg1.view.read (Elt F) f1) rK) (View.ld (arg2.view.read (Elt F) f2) rK) (View.ld (arg4.view.read (Elt F) f4) rS) = _
  rw [View.ld_unit_zero hz2, View.ld_unit_zero hz2, View.ld_unit_zero hz2]
  rfl

set_option maxHeartbeats 1000000 in
/-- The last point: the scratch, found at `a`, ends at `a` plus the product, and so does the output window. -/
theorem sound0_C (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S64x64 .f32) (harg3 : arg3.IsWhole)
    (arg4 : Memref sig .tc .vmem S64x64 .f32) (harg4 : arg4.IsWhole) (hc0 : ¬cond0_0 i) (hc1 : cond0_1 i)
    (k v : Vec F S8192x64 .f32) (a : Vec F S64x64 .f32) (K : PUnit → sProp 𝕄) :
    iprop(owns (c : Thread nD τ) arg1 fullShare k ∗ owns (c : Thread nD τ) arg2 fullShare v ∗ (∃ d, owns (c : Thread nD τ) arg3 fullShare d)
        ∗ owns (c : Thread nD τ) arg4 fullShare a
        ∗ (iprop(owns (c : Thread nD τ) arg1 fullShare k ∗ owns (c : Thread nD τ) arg2 fullShare v ∗ owns (c : Thread nD τ) arg3 fullShare (step0 a k v)
            ∗ owns (c : Thread nD τ) arg4 fullShare (step0 a k v)) -∗ K ⟨⟩))
      ⊢ wp frame (wpE (defs₀ (F := F)) Variants.none c none) E (cc0__s_kernel i arg1 harg1 arg2 harg2 arg3 harg3 arg4 harg4) K := by
  simp only [cc0__s_kernel_eq_skeleton]; unfold cc0__s_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc0 | exact hc1)
  sl_step
  sl_unfold_words
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_rS _ _),
      View.canon_unit_zero hz2, View.readCov_unit_zero _ hz2]
    show k0_pay2 (View.ld (arg1.view.read (Elt F) f1) rK) (View.ld (arg2.view.read (Elt F) f2) rK) (View.ld (arg4.view.read (Elt F) f4) rS) = _
    rw [View.ld_unit_zero hz2, View.ld_unit_zero hz2, View.ld_unit_zero hz2]
    rfl
  iexists _; isplitr
  swap; · iexact H4
  ipureintro
  rw [View.read_writes_eq_canon _ _ _ (cover_rS _ _),
    View.canon_unit_zero hz2]
  show k0_pay2 (View.ld (arg1.view.read (Elt F) f1) rK) (View.ld (arg2.view.read (Elt F) f2) rK) (View.ld (arg4.view.read (Elt F) f4) rS) = _
  rw [View.ld_unit_zero hz2, View.ld_unit_zero hz2, View.ld_unit_zero hz2]
  rfl

end Cert.KernelIdeal.Fr

end
-- ==== Proof.KI.Obl0.lean ====
/-
  The first pallas_call's proof data and body obligation: between points the scratch holds the running sum
  (before the first point it holds anything), and the body at each point — first, middle or last — takes the
  invariant from one point to the next.
-/
import proofs.«104029_j52544629900005_1_alg».proof.Proof.KI.Reg0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- Before position `n`: at the start the region's plain invariant (the scratch at anything); afterwards the scratch at
    the running sum the point before left, the other scoped buffers and the generator register at anything. -/
def PhiS (c : Dev nD) : (n : ℕ) → n ≤ cfg0.N → sProp 𝕄
  | 0, _ => Pipeline.ΦA spec0 c
  | n + 1, hn => iprop((owns (c : Thread nD τ) scM fullShare (acc0 V c n hn) ∗ restOther c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc0 V c n hn) ∗ restOther c) ∗ (∃ r, prngReg c r)) := rfl

theorem PhiS_pos (c : Dev nD) (n : ℕ) (h : n ≤ cfg0.N) (hz : n ≠ 0) :
    PhiS V c n h = iprop((owns (c : Thread nD τ) scM fullShare (acc0 V c (n - 1) (by omega)) ∗ restOther c) ∗ (∃ r, prngReg c r)) := by
  cases n with
  | zero => exact absurd rfl hz
  | succ n => rfl

/-! ## The proof data -/

/-- The arrays as the region finds them; after the body each input's buffer at its block and the output's at the
    running sum (consulted at the last point only: elsewhere the window is idle and not written back); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: which of the three cases the point is in is decided by its position; the invariant hands the
    body the scratch at what the point before left (at anything at the first point) and takes it back at this point's sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_zero V c t h0]
    rw [PhiS_castSucc V c t, PhiS_zero V c _ _ h0, PhiA0_eq]
    iintro ⟨⟨⟨HS, Hr⟩, Hg⟩, Ho, ⟨%d0, H0⟩, ⟨%d1, H1⟩, ⟨%d2, H2⟩⟩
    iapply (sound0_A c Set.univ (grid0.coords t) _ _ _ _ _ _ _ _ hc0 hc1 (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists d2; iexact H2
  · by_cases h1 : t.val = 31
    · have hc0 : ¬cond0_0 (grid0.coords t) := fun h => h0 ((hcond0_0 t).mp h)
      have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [acc0_pos V c t h0]
      rw [PhiS_castSucc V c t, PhiS_pos V c _ _ h0]
      iintro ⟨⟨⟨HS, Hr⟩, Hg⟩, Ho, ⟨%d0, H0⟩, ⟨%d1, H1⟩, ⟨%d2, H2⟩⟩
      iapply (sound0_C c Set.univ (grid0.coords t) _ _ _ _ _ _ _ _ hc0 hc1 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 2 t (idleAt0_2 t hc1) (noFlush0_2 t hc1)]
      rw [acc0_pos V c t h0]
      rw [PhiS_castSucc V c t, PhiS_pos V c _ _ h0]
      iintro ⟨⟨⟨HS, Hr⟩, Hg⟩, Ho, ⟨%d0, H0⟩, ⟨%d1, H1⟩, ⟨%d2, H2⟩⟩
      iapply (sound0_B c Set.univ (grid0.coords t) _ _ _ _ _ _ _ _ hc0 hc1 (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists d2; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitl [HS Hr]
  · isplitl [HS]; · iexists _; iexact HS
    iexact Hr
  iexact Hg

end Cert.KernelIdeal.Fr

end
-- ==== Proof.KI.Reg1.lean ====
/-
  The second pallas_call (the per-trunk attention followed by the product with the global state), at the
  buffer contents `V` its region is entered with. Each grid point `t` takes trunks `32 t … 32 t + 31`:
  the three blocks of the reshaped Q, K, V and the whole 64 × 64 state; it leaves in the output block the
  three chained matrix products of those. Nothing is carried from point to point.
-/
import proofs.«104029_j52544629900005_1_alg».proof.Proof.Gen.KernelIdeal.Launch
import proofs.«104029_j52544629900005_1_alg».proof.Proof.Gen.KernelIdeal.Skeleton
import proofs.«104029_j52544629900005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the state's
    window is fetched once: its block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev rS1 : Rect S64x64 := Rect.unit (s := S64x64) ![0, 0] S64x64.size inb_S64x64_S64x64_0_0
abbrev rB1 : Rect S32x128x64 := Rect.unit (s := S32x128x64) ![0, 0, 0] S32x128x64.size inb_S32x128x64_S32x128x64_0_0_0

/-- What the body leaves in the output window's buffer, from the state `s` and the blocks `q`, `k`, `v`:
    its one store, of the chained products. -/
def out1_4 (s : Vec F S64x64 .f32) (q k v : Vec F S32x128x64 .f32) : Vec F S32x128x64 .f32 :=
  View.canon [⟨rB1, k1_pay1 (View.ld q rB1) (View.ld k rB1) (View.ld v rB1) (View.ld s rS1)⟩]

/-- The store covers the buffer. -/
theorem cover1_4 (p0 : Vec F S32x128x64 .f32) (y : S32x128x64.Idx) :
    ∃ pc ∈ ([⟨rB1, p0⟩] : List (View.Piece (Elt F) S32x128x64 .f32)), y ∈ pc.1.set :=
  View.cover_of_tiled [⟨rB1, p0⟩] S32x128x64.size (by rfl) y

/-! ## The body's triple -/

set_option maxHeartbeats 1000000 in
/-- On whole staging memrefs, the inputs' at contents `s`, `q`, `k`, `v` and the output's at anything, the body runs
    to the continuation holding the inputs' as they were and the output's at `out1_4`. -/
theorem sound_kernel1 (c : Dev nD) (E : Set ℕ) (i : grid1.Coords) (arg1 : Memref sig .tc .vmem S64x64 .f32) (harg1 : arg1.IsWhole)
    (arg2 : Memref sig .tc .vmem S32x128x64 .f32) (harg2 : arg2.IsWhole) (arg3 : Memref sig .tc .vmem S32x128x64 .f32) (harg3 : arg3.IsWhole)
    (arg4 : Memref sig .tc .vmem S32x128x64 .f32) (harg4 : arg4.IsWhole) (arg5 : Memref sig .tc .vmem S32x128x64 .f32) (harg5 : arg5.IsWhole)
    (s : Vec F S64x64 .f32) (q k v : Vec F S32x128x64 .f32) (K : PUnit → sProp 𝕄) :
    iprop(owns (c : Thread nD τ) arg1 fullShare s ∗ owns (c : Thread nD τ) arg2 fullShare q ∗ owns (c : Thread nD τ) arg3 fullShare k
        ∗ owns (c : Thread nD τ) arg4 fullShare v ∗ (∃ d, owns (c : Thread nD τ) arg5 fullShare d)
        ∗ (iprop(owns (c : Thread nD τ) arg1 fullShare s ∗ owns (c : Thread nD τ) arg2 fullShare q ∗ owns (c : Thread nD τ) arg3 fullShare k
            ∗ owns (c : Thread nD τ) arg4 fullShare v ∗ owns (c : Thread nD τ) arg5 fullShare (out1_4 s q k v)) -∗ K ⟨⟩))
      ⊢ wp frame (wpE (defs₀ (F := F)) Variants.none c none) E (cc1__main_kernel i arg1 harg1 arg2 harg2 arg3 harg3 arg4 harg4 arg5 harg5) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

/-! ## The proof data -/

/-- The proof data of this pallas_call on core `c`: the arrays as the region finds them; after the body each input's
    buffer at its block and the output's at `out1_4` of the input blocks; between points only the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The whole run of @main: the first pallas_call entered from the launch memory, three reshapes, the second
  pallas_call, one reshape. The contents of every unscoped buffer at each boundary are a fold from the launch memory
  (`W0` … `W4`): a pallas_call leaves its arrays at what its write-backs leave, a reshape line at the reshaped operand.
  Every weakly fair execution terminates with every unscoped buffer at `W4`; no line and no pallas_call writes an
  argument array, so the arguments end as launched.
-/
import proofs.«104029_j52544629900005_1_alg».proof.Proof.KI.Obl0
import proofs.«104029_j52544629900005_1_alg».proof.Proof.KI.Reg1
import proofs.«104029_j52544629900005_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the first pallas_call's entry). -/
abbrev W0 : Dev nD → Valuation τ sig (Elt F) := fun c b => m ((c : Dev nD), b)
abbrev E0 : (c : Dev nD) → (b : Ref sig .tc) → Buf (Elt F) ((c : Thread nD τ).loc b) := fun c b => W0 m c b
/-- After the first pallas_call: its arrays at what its write-backs leave, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the three reshapes (the second pallas_call's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After the second pallas_call. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)
/-- After the last reshape (the end). -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 0).trans (((dat0 (E0 m) c).arrAt_in 0 rfl _).trans (A_eq0 (E0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (r := main_arg2) (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (E0 m) c).arrAt_in 1 rfl _).trans (A_eq0 (E0 m) c 1))
    _ = m ((c : Thread nD τ).loc main_arg2) := rfl

/-! ## The proof data family and the thread state -/

abbrev adm' : (p : Fin 2) → (pcfgs (F := F) p).Adm := fun p => (cfgs p).toPCfg_adm
/-- Each pallas_call's proof data at its region's entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The pallas_calls as segments -/

set_option backward.isDefEq.respectTransparency.types false in
/-- The first pallas_call over the thread state: entered from every unscoped buffer at `W0`, left at `W1`. The
    generator register and the scoped rest go into the region's invariant (which then tracks the scratch) and come back. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W2`, left at `W3`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Fr

end
-- ==== Proof.KI.RunVal.lean ====
/-
  What the fold of the buffer contents holds where the value is read: the result is the reshape of the second
  pallas_call's output array; that pallas_call was entered with the reshapes of the three arguments and with the first
  pallas_call's output array as its state; the first was entered with the arguments as launched.
-/
import proofs.«104029_j52544629900005_1_alg».proof.Proof.KI.Run

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

theorem W1_main_arg0 (c : Dev nD) : W1 m c (Proc.devRef .tc main_arg0) = m ((c : Thread nD τ).loc main_arg0) :=
  W1_of_ne m c main_arg0 (by decide)
theorem W1_main_arg1 (c : Dev nD) : W1 m c (Proc.devRef .tc main_arg1) = m ((c : Thread nD τ).loc main_arg1) :=
  (W1_arr m c 0).trans (((dat0 (E0 m) c).arrAt_in 0 rfl _).trans (A_eq0 (E0 m) c 0))
theorem W1_main_arg2 (c : Dev nD) : W1 m c (Proc.devRef .tc main_arg2) = m ((c : Thread nD τ).loc main_arg2) :=
  (W1_arr m c 1).trans (((dat0 (E0 m) c).arrAt_in 1 rfl _).trans (A_eq0 (E0 m) c 1))

/-- The second pallas_call's state is the first one's output array. -/
theorem E2_main_v0 (c : Dev nD) : E2 m c main_v0 = (dat0 (E0 m) c).arrAt 2 cfg0.N :=
  (StableHlo.after_of_writes_sub hostOps1 _ hostOps1_writes (r := main_v0) (by decide)).trans (W1_arr m c 2)

/-- Its three other inputs are the reshapes of the arguments. -/
theorem E2_main_v1 (c : Dev nD) :
    E2 m c main_v1 = shapeCast _ (m ((c : Thread nD τ).loc main_arg0)) shapeCasts_S262144x64_S2048x128x64 := by
  rw [← W1_main_arg0 m c]
  show StableHlo.after hostOps1 (W1 m c) (Proc.devRef .tc main_v1) = _
  after_results; rfl
theorem E2_main_v2 (c : Dev nD) :
    E2 m c main_v2 = shapeCast _ (m ((c : Thread nD τ).loc main_arg1)) shapeCasts_S262144x64_S2048x128x64 := by
  rw [← W1_main_arg1 m c]
  show StableHlo.after hostOps1 (W1 m c) (Proc.devRef .tc main_v2) = _
  after_results; rfl
theorem E2_main_v3 (c : Dev nD) :
    E2 m c main_v3 = shapeCast _ (m ((c : Thread nD τ).loc main_arg2)) shapeCasts_S262144x64_S2048x128x64 := by
  rw [← W1_main_arg2 m c]
  show StableHlo.after hostOps1 (W1 m c) (Proc.devRef .tc main_v3) = _
  after_results; rfl

/-- The result is the reshape of the second pallas_call's output array. -/
theorem W4_main_v5 (c : Dev nD) :
    W4 m c (Proc.devRef .tc main_v5) = shapeCast _ ((dat1 (E2 m) c).arrAt 4 cfg1.N) shapeCasts_S2048x128x64_S262144x64 := by
  rw [← W3_arr m c 4]
  show StableHlo.after hostOps2 (W3 m c) (Proc.devRef .tc main_v5) = _
  after_results; rfl

end Cert.KernelIdeal.Fr

end
-- ==== Proof.Val.Pay0.lean ====
import proofs.«104029_j52544629900005_1_alg».proof.Proof.Gen.KernelIdeal.Skeleton
import Idealize.ShloMosaic.Lib.Pipeline.Value
import Idealize.ShloMosaic.Lib.ValueIdx
import Idealize.ShloMosaic.PureOps.Ideal.Laws
import Mathlib.Logic.Equiv.Fin.Basic
import Mathlib.Algebra.BigOperators.Fin

/-! # The first kernel's payloads, read at an index

The first kernel accumulates `S = Vᵀ K` over row blocks: at the first grid point it stores the zero
matrix, and at every grid point it adds to the accumulator the block product `Vᵇᵀ Kᵇ`, whose `(d, e)`
entry is `∑ r, Vᵇ[r, d] * Kᵇ[r, e]`. At the ideal values a change of format is the identity, so the
two truncations vanish. The last lemma cuts a sum over `262144 = 32 * 8192` rows into the 32 blocks. -/

noncomputable section

namespace Cert.KernelIdeal.Val

open Cert.KernelIdeal Cert.KernelIdeal.Gen Idealize.ShloMosaic Idealize.ShloMosaic.ValueIdx

/-- The first payload is the zero matrix. -/
theorem pay1_apply (j : S64x64.Idx) : k0_pay1 (F := Ideal) j = 0 := by
  unfold k0_pay1
  simp only [shapeCast_self]
  exact Ideal.ofBits_zero_f32

/-! ## The block product's operand indices, axis by axis

The left operand (the `V` block) and the right operand (the `K` block) are both contracted on their
row axis `0`; the left's column axis `1` is the output's axis `0`, the right's is the output's axis `1`. -/

theorem lhs_pay2_0 (i : S64x64.Idx) (q : dot_S8192x64_S8192x64_S64x64_0_0_1_1_n_n.contr.Idx) :
    (dot_S8192x64_S8192x64_S64x64_0_0_1_1_n_n.lhsIdx i q 0).val = (q ⟨0, by decide⟩).val :=
  dot_S8192x64_S8192x64_S64x64_0_0_1_1_n_n.lhsIdx_val_of_single rfl i q

theorem lhs_pay2_1 (i : S64x64.Idx) (q : dot_S8192x64_S8192x64_S64x64_0_0_1_1_n_n.contr.Idx) :
    (dot_S8192x64_S8192x64_S64x64_0_0_1_1_n_n.lhsIdx i q 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl

theorem rhs_pay2_0 (i : S64x64.Idx) (q : dot_S8192x64_S8192x64_S64x64_0_0_1_1_n_n.contr.Idx) :
    (dot_S8192x64_S8192x64_S64x64_0_0_1_1_n_n.rhsIdx i q 0).val = (q ⟨0, by decide⟩).val :=
  dot_S8192x64_S8192x64_S64x64_0_0_1_1_n_n.rhsIdx_val_of_single rfl i q

theorem rhs_pay2_1 (i : S64x64.Idx) (q : dot_S8192x64_S8192x64_S64x64_0_0_1_1_n_n.contr.Idx) :
    (dot_S8192x64_S8192x64_S64x64_0_0_1_1_n_n.rhsIdx i q 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl

/-- The second payload at `(d, e)`: the accumulator there plus `∑ r, V[r, d] * K[r, e]` over the block's rows. -/
theorem pay2_apply (k v : Vec Ideal S8192x64 .f32) (a : Vec Ideal S64x64 .f32) (d e : Fin 64) :
    k0_pay2 (F := Ideal) k v a (ix2 d e) = a (ix2 d e) + ∑ r : Fin 8192, v (ix2 r d) * k (ix2 r e) := by
  unfold k0_pay2
  simp only [shapeCast_self, matmul]
  rw [addf_apply, Ideal.matmul_constant_zero_apply,
    ← Equiv.sum_comp (contrEquiv1 dot_S8192x64_S8192x64_S64x64_0_0_1_1_n_n 8192 rfl rfl).symm]
  refine congrArg (a (ix2 d e) + ·) (Finset.sum_congr rfl fun r _ => ?_)
  have hk := contrEquiv1_symm_val dot_S8192x64_S8192x64_S64x64_0_0_1_1_n_n 8192 rfl rfl r
  have el : dot_S8192x64_S8192x64_S64x64_0_0_1_1_n_n.lhsIdx (ix2 d e) ((contrEquiv1 dot_S8192x64_S8192x64_S64x64_0_0_1_1_n_n 8192 rfl rfl).symm r) = ix2 r d := funext fun x => Fin.ext (by
    match x with
    | ⟨0, _⟩ => exact (lhs_pay2_0 _ _).trans hk
    | ⟨1, _⟩ => exact lhs_pay2_1 _ _)
  have er : dot_S8192x64_S8192x64_S64x64_0_0_1_1_n_n.rhsIdx (ix2 d e) ((contrEquiv1 dot_S8192x64_S8192x64_S64x64_0_0_1_1_n_n 8192 rfl rfl).symm r) = ix2 r e := funext fun x => Fin.ext (by
    match x with
    | ⟨0, _⟩ => exact (rhs_pay2_0 _ _).trans hk
    | ⟨1, _⟩ => exact rhs_pay2_1 _ _)
  rw [el, er, truncf_apply, truncf_apply]

/-! ## A sum over `a * b` positions, block by block -/

/-- Position `r` of block `i` lies inside the `a` blocks of `b` positions. -/
theorem block_lt {a b : ℕ} (i : Fin a) (r : Fin b) : i.val * b + r.val < a * b :=
  Nat.lt_of_lt_of_le (by rw [Nat.succ_mul]; exact Nat.add_lt_add_left r.isLt _)
    (Nat.mul_le_mul_right b (Nat.succ_le_of_lt i.isLt))

/-- A sum over `Fin (a * b)` is the sum over the `a` blocks of the sums over each block's `b` positions. -/
theorem sum_blocks_mul {M : Type*} [AddCommMonoid M] (a b : ℕ) (f : Fin (a * b) → M) :
    ∑ n, f n = ∑ i : Fin a, ∑ r : Fin b, f ⟨i.val * b + r.val, block_lt i r⟩ := by
  rw [← Equiv.sum_comp finProdFinEquiv f, Fintype.sum_prod_type]
  refine Finset.sum_congr rfl fun i _ => Finset.sum_congr rfl fun r _ => congrArg f (Fin.ext ?_)
  show r.val + b * i.val = i.val * b + r.val
  rw [Nat.mul_comm, Nat.add_comm]

/-- The 262144 rows are 32 blocks of 8192. -/
theorem sum_blocks {M : Type*} [AddCommMonoid M] (f : Fin 262144 → M) :
    ∑ n, f n = ∑ i : Fin 32, ∑ r : Fin 8192, f ⟨i.val * 8192 + r.val, by omega⟩ :=
  sum_blocks_mul 32 8192 f

end Cert.KernelIdeal.Val

end
-- ==== Proof.Val.Arr0.lean ====
import proofs.«104029_j52544629900005_1_alg».proof.Proof.KI.Obl0
import proofs.«104029_j52544629900005_1_alg».proof.Proof.Val.Pay0
import Idealize.ShloMosaic.Lib.Pipeline.Value
import Idealize.ShloMosaic.Lib.ValueIdx
import Mathlib.Algebra.BigOperators.Fin

/-! # The first kernel's output array, in closed form

The first kernel walks the two 262144 × 64 input arrays `K` and `V` in 32 blocks of 8192 rows. A 64 × 64 scratch
carries the running sum: after block `n` its entry `(d, e)` is `∑ V[m, d] * K[m, e]` over the rows `m` of blocks
`0 … n`. The output window is the whole 64 × 64 array, written back once, after the last block; so the array ends at
`(Vᵀ K)[d, e] = ∑ m, V[m, d] * K[m, e]` over all 262144 rows. -/

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The two argument arrays as matrices of extended reals -/

/-- The array window 0 steps through (`K`), as the region finds it: a 262144 × 64 matrix of extended reals. -/
abbrev Kmat (c : Dev nD) : S262144x64.Idx → EReal := V c main_arg1
/-- The array window 1 steps through (`V`), as the region finds it: a 262144 × 64 matrix of extended reals. -/
abbrev Vmat (c : Dev nD) : S262144x64.Idx → EReal := V c main_arg2

/-! ## The input blocks are rows of the arguments

Both input windows step through their arrays one block of 8192 rows per grid point: block `t` of either is rows
`8192 t … 8192 t + 8191`, all 64 columns. -/

/-- The two input windows' block indices at point `t`: `(t, 0)`. -/
theorem idx_in0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `r` of block `t` is a row of the array. -/
theorem row_lt (t : Fin cfg0.N) (r : Fin 8192) : t.val * 8192 + r.val < 262144 := by
  have h : t.val < 32 := lt_of_lt_of_eq t.isLt N_0
  omega

/-- Window 0's block at point `t` is rows `8192 t …` of `K`. -/
theorem iblk0_0_apply (c : Dev nD) (t : Fin cfg0.N) (r : Fin 8192) (d : Fin 64) :
    (Fr.iblk0 V c 0 t : Vec Ideal S8192x64 .f32) (ix2 r d) = Kmat V c (ix2 ⟨t.val * 8192 + r.val, row_lt t r⟩ d) := by
  obtain ⟨e0, e1, -, -⟩ := idx_in0 t
  unfold Fr.iblk0
  rw [View.read_apply]
  show Kmat V c _ = _
  congr 1
  funext a; apply Fin.ext
  match a with
  | ⟨0, _⟩ => show win0_0.index t (0 : Fin 2) * 8192 + 1 * r.val = t.val * 8192 + r.val; rw [e0]; omega
  | ⟨1, _⟩ => show win0_0.index t (1 : Fin 2) * 64 + 1 * d.val = d.val; rw [e1]; omega

/-- Window 1's block at point `t` is rows `8192 t …` of `V`. -/
theorem iblk0_1_apply (c : Dev nD) (t : Fin cfg0.N) (r : Fin 8192) (d : Fin 64) :
    (Fr.iblk0 V c 1 t : Vec Ideal S8192x64 .f32) (ix2 r d) = Vmat V c (ix2 ⟨t.val * 8192 + r.val, row_lt t r⟩ d) := by
  obtain ⟨-, -, e0, e1⟩ := idx_in0 t
  unfold Fr.iblk0
  rw [View.read_apply]
  show Vmat V c _ = _
  congr 1
  funext a; apply Fin.ext
  match a with
  | ⟨0, _⟩ => show win0_1.index t (0 : Fin 2) * 8192 + 1 * r.val = t.val * 8192 + r.val; rw [e0]; omega
  | ⟨1, _⟩ => show win0_1.index t (1 : Fin 2) * 64 + 1 * d.val = d.val; rw [e1]; omega

/-! ## The running sum in closed form -/

/-- Block `t`'s contribution to entry `(d, e)`: the sum over the block's rows of the products. -/
def blockSum (c : Dev nD) (d e : Fin 64) (t : Fin cfg0.N) : EReal :=
  ∑ r : Fin 8192, Vmat V c (ix2 ⟨t.val * 8192 + r.val, row_lt t r⟩ d) * Kmat V c (ix2 ⟨t.val * 8192 + r.val, row_lt t r⟩ e)

/-- One point's step: what the scratch held plus the point's block contribution. -/
theorem step0_apply (c : Dev nD) (a : Vec Ideal S64x64 .f32) (t : Fin cfg0.N) (d e : Fin 64) :
    Fr.step0 a (Fr.iblk0 V c 0 t) (Fr.iblk0 V c 1 t) (ix2 d e) = a (ix2 d e) + blockSum V c d e t := by
  unfold Fr.step0 blockSum
  rw [pay2_apply]
  refine congrArg (a (ix2 d e) + ·) (Finset.sum_congr rfl fun r _ => ?_)
  rw [iblk0_0_apply, iblk0_1_apply]

/-- After point `n` the scratch's entry `(d, e)` is the sum of the contributions of blocks `0 … n`. -/
theorem acc0_apply (c : Dev nD) (d e : Fin 64) : ∀ (n : ℕ) (hn : n < cfg0.N),
    Fr.acc0 V c n hn (ix2 d e)
      = ∑ i : Fin (n + 1), blockSum V c d e ⟨i.val, lt_of_le_of_lt (Nat.le_of_lt_succ i.isLt) hn⟩
  | 0, hn => by
    show Fr.step0 Fr.zero0 (Fr.iblk0 V c 0 ⟨0, hn⟩) (Fr.iblk0 V c 1 ⟨0, hn⟩) (ix2 d e) = _
    rw [step0_apply, Fin.sum_univ_one]
    show k0_pay1 (F := Ideal) (ix2 d e) + _ = _
    rw [pay1_apply, zero_add]
    rfl
  | n + 1, hn => by
    show Fr.step0 (Fr.acc0 V c n (Nat.lt_of_succ_lt hn)) (Fr.iblk0 V c 0 ⟨n + 1, hn⟩) (Fr.iblk0 V c 1 ⟨n + 1, hn⟩) (ix2 d e) = _
    rw [step0_apply, Fin.sum_univ_castSucc, acc0_apply c d e n (Nat.lt_of_succ_lt hn)]
    rfl

/-- After the last point the scratch's entry `(d, e)` is the sum over all 262144 rows. -/
theorem acc0_last (c : Dev nD) (d e : Fin 64) (h : 31 < cfg0.N) :
    Fr.acc0 V c 31 h (ix2 d e) = ∑ n : Fin 262144, Vmat V c (ix2 n d) * Kmat V c (ix2 n e) := by
  rw [acc0_apply V c d e 31 h, sum_blocks fun n : Fin 262144 => Vmat V c (ix2 n d) * Kmat V c (ix2 n e)]
  rfl

/-! ## The output array after the run

The 64 × 64 output has one block, the whole array, and it is written back at the last point only; so after the run
the array holds what the last point left in the scratch. -/

/-- The output window's block index is `(0, 0)` at every point. -/
theorem idx_out0 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The grid has a point 31, -/
theorem lt31 : 31 < cfg0.N := lt_of_lt_of_eq (by decide) N_0.symm

/-- and it is the only one that writes the output back. -/
theorem flush_last (t : Fin cfg0.N) (hf : (cfg0.win 2).flush t = true) : t = ⟨31, lt31⟩ := by
  have h1 := (flush0_2 t).mp hf
  have h2 : t.val < 32 := lt_of_lt_of_eq t.isLt N_0
  exact Fin.ext (show t.val = 31 by omega)

/-- The output array after the run is the scratch after the last point. -/
theorem arr0_eq (c : Dev nD) : (Fr.dat0 (F := Ideal) V c).arrAt 2 cfg0.N = Fr.acc0 V c 31 lt31 := by
  refine (Fr.dat0 (F := Ideal) V c).arrAt_eq_of_cover 2 (Fr.acc0 V c 31 lt31) (fun t hf => ?_) (fun (i : S64x64.Idx) => ?_)
  · obtain rfl := flush_last t hf
    show (cfg0.win 2).cut (grid0.coords ⟨31, lt31⟩) ((Fr.dat0 (F := Ideal) V c).after 2 ⟨31, lt31⟩) = _
    rw [Fr.after0_2]
    obtain ⟨e0, e1⟩ := idx_out0 ⟨31, lt31⟩
    have hz' : (fun a => win0_2.index ⟨31, lt31⟩ a * main_v0.ty.shape.size a) = fun _ => 0 := funext fun a => by
      match a with
      | ⟨0, _⟩ => show win0_2.index ⟨31, lt31⟩ (0 : Fin 2) * _ = 0; rw [e0, Nat.zero_mul]
      | ⟨1, _⟩ => show win0_2.index ⟨31, lt31⟩ (1 : Fin 2) * _ = 0; rw [e1, Nat.zero_mul]
    exact (Memref.read_access_unit_zero (Elt Ideal) main_v0 hz' (fun a => by rw [congrFun hz' a]; simp) (Fr.acc0 V c 31 lt31)).symm
  · refine ⟨⟨31, lt31⟩, (flush0_2 _).mpr rfl, ?_⟩
    show i ∈ ((View.whole main_v0).slice (win0_2.rect ⟨31, lt31⟩)).set
    rw [View.set_slice_whole, Rect.mem_set_unit]
    obtain ⟨e0, e1⟩ := idx_out0 ⟨31, lt31⟩
    have h0 : (i 0).val < 64 := (i 0).isLt
    have h1 : (i 1).val < 64 := (i 1).isLt
    intro a
    match a with
    | ⟨0, _⟩ => show win0_2.index ⟨31, lt31⟩ (0 : Fin 2) * 64 ≤ (i 0).val ∧ (i 0).val < win0_2.index ⟨31, lt31⟩ (0 : Fin 2) * 64 + 64; rw [e0]; omega
    | ⟨1, _⟩ => show win0_2.index ⟨31, lt31⟩ (1 : Fin 2) * 64 ≤ (i 1).val ∧ (i 1).val < win0_2.index ⟨31, lt31⟩ (1 : Fin 2) * 64 + 64; rw [e1]; omega

/-- THE OUTPUT: after the run, entry `(d, e)` of the 64 × 64 array is `∑ n, V[n, d] * K[n, e]` over all 262144 rows. -/
theorem arr0_out (c : Dev nD) (d e : Fin 64) :
    (Fr.dat0 (F := Ideal) V c).arrAt 2 cfg0.N (ix2 d e) = ∑ n : Fin 262144, Vmat V c (ix2 n d) * Kmat V c (ix2 n e) :=
  (congrFun (arr0_eq V c) (ix2 d e)).trans (acc0_last V c d e lt31)

end Cert.KernelIdeal.Val

end
-- ==== Proof.Val.Pay1.lean ====
/- The second kernel's payload read at an index: three chained matrix products over a block of 32 trunks.
   With Q, K, V the three [32,128,64] blocks and S the [64,64] state, the payload's element (g, n, e) is
   ∑ d, (∑ m, (∑ d', Q[g,n,d'] · K[g,m,d']) · V[g,m,d]) · S[d,e]: each product accumulates into a zero splat, so it
   is the bare sum over its one contracted axis; the narrowing format changes between the products are the identity
   on extended reals; and the state, viewed [1,64,64] and laid along the 32 trunks, reads S[d,e] at (g, d, e). -/
import proofs.«104029_j52544629900005_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The first product, Q·Kᵀ: [32,128,64] × [32,128,64] → [32,128,128], contracting the last axis of both

Its operand indices at output index `i` = (g, n, m) and contraction index `q`, one axis at a time: the left operand
is read at (g, n, q), the right at (g, m, q). -/

theorem lhs_v9_0 (i : S32x128x128.Idx) (q : dot_S32x128x64_S32x128x64_S32x128x128_2_2_1_1_0_0.contr.Idx) :
    (dot_S32x128x64_S32x128x64_S32x128x128_2_2_1_1_0_0.lhsIdx i q 0).val = (i 0).val := by
  unfold DotDims.lhsIdx
  rw [dif_pos (show (0 : Fin S32x128x64.rank) ∈ dot_S32x128x64_S32x128x64_S32x128x128_2_2_1_1_0_0.lhsBatch by decide)]
  rfl
theorem lhs_v9_1 (i : S32x128x128.Idx) (q : dot_S32x128x64_S32x128x64_S32x128x128_2_2_1_1_0_0.contr.Idx) :
    (dot_S32x128x64_S32x128x64_S32x128x128_2_2_1_1_0_0.lhsIdx i q 1).val = (i 1).val := by
  unfold DotDims.lhsIdx
  rw [dif_neg (show ¬(1 : Fin S32x128x64.rank) ∈ dot_S32x128x64_S32x128x64_S32x128x128_2_2_1_1_0_0.lhsBatch by decide), dif_pos (show (1 : Fin S32x128x64.rank) ∈ dot_S32x128x64_S32x128x64_S32x128x128_2_2_1_1_0_0.lhsNonContracting by decide)]
  rfl
theorem lhs_v9_2 (i : S32x128x128.Idx) (q : dot_S32x128x64_S32x128x64_S32x128x128_2_2_1_1_0_0.contr.Idx) :
    (dot_S32x128x64_S32x128x64_S32x128x128_2_2_1_1_0_0.lhsIdx i q 2).val = (q ⟨0, by decide⟩).val :=
  dot_S32x128x64_S32x128x64_S32x128x128_2_2_1_1_0_0.lhsIdx_val_of_single rfl i q
theorem rhs_v9_0 (i : S32x128x128.Idx) (q : dot_S32x128x64_S32x128x64_S32x128x128_2_2_1_1_0_0.contr.Idx) :
    (dot_S32x128x64_S32x128x64_S32x128x128_2_2_1_1_0_0.rhsIdx i q 0).val = (i 0).val := by
  unfold DotDims.rhsIdx
  rw [dif_pos (show (0 : Fin S32x128x64.rank) ∈ dot_S32x128x64_S32x128x64_S32x128x128_2_2_1_1_0_0.rhsBatch by decide)]
  rfl
theorem rhs_v9_1 (i : S32x128x128.Idx) (q : dot_S32x128x64_S32x128x64_S32x128x128_2_2_1_1_0_0.contr.Idx) :
    (dot_S32x128x64_S32x128x64_S32x128x128_2_2_1_1_0_0.rhsIdx i q 1).val = (i 2).val := by
  unfold DotDims.rhsIdx
  rw [dif_neg (show ¬(1 : Fin S32x128x64.rank) ∈ dot_S32x128x64_S32x128x64_S32x128x128_2_2_1_1_0_0.rhsBatch by decide), dif_pos (show (1 : Fin S32x128x64.rank) ∈ dot_S32x128x64_S32x128x64_S32x128x128_2_2_1_1_0_0.rhsNonContracting by decide)]
  rfl
theorem rhs_v9_2 (i : S32x128x128.Idx) (q : dot_S32x128x64_S32x128x64_S32x128x128_2_2_1_1_0_0.contr.Idx) :
    (dot_S32x128x64_S32x128x64_S32x128x128_2_2_1_1_0_0.rhsIdx i q 2).val = (q ⟨0, by decide⟩).val :=
  dot_S32x128x64_S32x128x64_S32x128x128_2_2_1_1_0_0.rhsIdx_val_of_single rfl i q

/-- Into the zero splat, the first product at (g, n, m) is the sum over the shared last axis. -/
theorem v9_apply {φ₁ φ₂ : FTy} (a : FVec Ideal S32x128x64 φ₁) (b : FVec Ideal S32x128x64 φ₂) (g : Fin 32) (n m : Fin 128) :
    matmul dot_S32x128x64_S32x128x64_S32x128x128_2_2_1_1_0_0 none a b (constant S32x128x128 .f32 0x00000000#32) (ix3 g n m)
      = ∑ d : Fin 64, a (ix3 g n d) * b (ix3 g m d) := by
  show FloatOps.matmul dot_S32x128x64_S32x128x64_S32x128x128_2_2_1_1_0_0 none a b (constant S32x128x128 .f32 0x00000000#32) (ix3 g n m) = _
  rw [Ideal.matmul_constant_zero_apply, ← Equiv.sum_comp (contrEquiv1 dot_S32x128x64_S32x128x64_S32x128x128_2_2_1_1_0_0 64 rfl rfl).symm]
  refine Finset.sum_congr rfl fun d _ => ?_
  have hk := contrEquiv1_symm_val dot_S32x128x64_S32x128x64_S32x128x128_2_2_1_1_0_0 64 rfl rfl d
  have el : dot_S32x128x64_S32x128x64_S32x128x128_2_2_1_1_0_0.lhsIdx (ix3 g n m) ((contrEquiv1 dot_S32x128x64_S32x128x64_S32x128x128_2_2_1_1_0_0 64 rfl rfl).symm d) = ix3 g n d := funext fun c => Fin.ext (by
    match c with
    | ⟨0, _⟩ => exact lhs_v9_0 _ _
    | ⟨1, _⟩ => exact lhs_v9_1 _ _
    | ⟨2, _⟩ => exact (lhs_v9_2 _ _).trans hk)
  have er : dot_S32x128x64_S32x128x64_S32x128x128_2_2_1_1_0_0.rhsIdx (ix3 g n m) ((contrEquiv1 dot_S32x128x64_S32x128x64_S32x128x128_2_2_1_1_0_0 64 rfl rfl).symm d) = ix3 g m d := funext fun c => Fin.ext (by
    match c with
    | ⟨0, _⟩ => exact rhs_v9_0 _ _
    | ⟨1, _⟩ => exact rhs_v9_1 _ _
    | ⟨2, _⟩ => exact (rhs_v9_2 _ _).trans hk)
  rw [el, er]

/-! ## The second product, (Q·Kᵀ)·V: [32,128,128] × [32,128,64] → [32,128,64], contracting the left's last axis with the right's middle one

At output index (g, n, d) and contraction index `q` the left operand is read at (g, n, q), the right at (g, q, d). -/

theorem lhs_v11_0 (i : S32x128x64.Idx) (q : dot_S32x128x128_S32x128x64_S32x128x64_2_1_1_2_0_0.contr.Idx) :
    (dot_S32x128x128_S32x128x64_S32x128x64_2_1_1_2_0_0.lhsIdx i q 0).val = (i 0).val := by
  unfold DotDims.lhsIdx
  rw [dif_pos (show (0 : Fin S32x128x128.rank) ∈ dot_S32x128x128_S32x128x64_S32x128x64_2_1_1_2_0_0.lhsBatch by decide)]
  rfl
theorem lhs_v11_1 (i : S32x128x64.Idx) (q : dot_S32x128x128_S32x128x64_S32x128x64_2_1_1_2_0_0.contr.Idx) :
    (dot_S32x128x128_S32x128x64_S32x128x64_2_1_1_2_0_0.lhsIdx i q 1).val = (i 1).val := by
  unfold DotDims.lhsIdx
  rw [dif_neg (show ¬(1 : Fin S32x128x128.rank) ∈ dot_S32x128x128_S32x128x64_S32x128x64_2_1_1_2_0_0.lhsBatch by decide), dif_pos (show (1 : Fin S32x128x128.rank) ∈ dot_S32x128x128_S32x128x64_S32x128x64_2_1_1_2_0_0.lhsNonContracting by decide)]
  rfl
theorem lhs_v11_2 (i : S32x128x64.Idx) (q : dot_S32x128x128_S32x128x64_S32x128x64_2_1_1_2_0_0.contr.Idx) :
    (dot_S32x128x128_S32x128x64_S32x128x64_2_1_1_2_0_0.lhsIdx i q 2).val = (q ⟨0, by decide⟩).val :=
  dot_S32x128x128_S32x128x64_S32x128x64_2_1_1_2_0_0.lhsIdx_val_of_single rfl i q
theorem rhs_v11_0 (i : S32x128x64.Idx) (q : dot_S32x128x128_S32x128x64_S32x128x64_2_1_1_2_0_0.contr.Idx) :
    (dot_S32x128x128_S32x128x64_S32x128x64_2_1_1_2_0_0.rhsIdx i q 0).val = (i 0).val := by
  unfold DotDims.rhsIdx
  rw [dif_pos (show (0 : Fin S32x128x64.rank) ∈ dot_S32x128x128_S32x128x64_S32x128x64_2_1_1_2_0_0.rhsBatch by decide)]
  rfl
theorem rhs_v11_1 (i : S32x128x64.Idx) (q : dot_S32x128x128_S32x128x64_S32x128x64_2_1_1_2_0_0.contr.Idx) :
    (dot_S32x128x128_S32x128x64_S32x128x64_2_1_1_2_0_0.rhsIdx i q 1).val = (q ⟨0, by decide⟩).val :=
  dot_S32x128x128_S32x128x64_S32x128x64_2_1_1_2_0_0.rhsIdx_val_of_single rfl i q
theorem rhs_v11_2 (i : S32x128x64.Idx) (q : dot_S32x128x128_S32x128x64_S32x128x64_2_1_1_2_0_0.contr.Idx) :
    (dot_S32x128x128_S32x128x64_S32x128x64_2_1_1_2_0_0.rhsIdx i q 2).val = (i 2).val := by
  unfold DotDims.rhsIdx
  rw [dif_neg (show ¬(2 : Fin S32x128x64.rank) ∈ dot_S32x128x128_S32x128x64_S32x128x64_2_1_1_2_0_0.rhsBatch by decide), dif_pos (show (2 : Fin S32x128x64.rank) ∈ dot_S32x128x128_S32x128x64_S32x128x64_2_1_1_2_0_0.rhsNonContracting by decide)]
  rfl

/-- Into the zero splat, the second product at (g, n, d) is the sum over the 128 positions m. -/
theorem v11_apply {φ₁ φ₂ : FTy} (a : FVec Ideal S32x128x128 φ₁) (b : FVec Ideal S32x128x64 φ₂) (g : Fin 32) (n : Fin 128) (d : Fin 64) :
    matmul dot_S32x128x128_S32x128x64_S32x128x64_2_1_1_2_0_0 none a b (constant S32x128x64 .f32 0x00000000#32) (ix3 g n d)
      = ∑ m : Fin 128, a (ix3 g n m) * b (ix3 g m d) := by
  show FloatOps.matmul dot_S32x128x128_S32x128x64_S32x128x64_2_1_1_2_0_0 none a b (constant S32x128x64 .f32 0x00000000#32) (ix3 g n d) = _
  rw [Ideal.matmul_constant_zero_apply, ← Equiv.sum_comp (contrEquiv1 dot_S32x128x128_S32x128x64_S32x128x64_2_1_1_2_0_0 128 rfl rfl).symm]
  refine Finset.sum_congr rfl fun m _ => ?_
  have hk := contrEquiv1_symm_val dot_S32x128x128_S32x128x64_S32x128x64_2_1_1_2_0_0 128 rfl rfl m
  have el : dot_S32x128x128_S32x128x64_S32x128x64_2_1_1_2_0_0.lhsIdx (ix3 g n d) ((contrEquiv1 dot_S32x128x128_S32x128x64_S32x128x64_2_1_1_2_0_0 128 rfl rfl).symm m) = ix3 g n m := funext fun c => Fin.ext (by
    match c with
    | ⟨0, _⟩ => exact lhs_v11_0 _ _
    | ⟨1, _⟩ => exact lhs_v11_1 _ _
    | ⟨2, _⟩ => exact (lhs_v11_2 _ _).trans hk)
  have er : dot_S32x128x128_S32x128x64_S32x128x64_2_1_1_2_0_0.rhsIdx (ix3 g n d) ((contrEquiv1 dot_S32x128x128_S32x128x64_S32x128x64_2_1_1_2_0_0 128 rfl rfl).symm m) = ix3 g m d := funext fun c => Fin.ext (by
    match c with
    | ⟨0, _⟩ => exact rhs_v11_0 _ _
    | ⟨1, _⟩ => exact (rhs_v11_1 _ _).trans hk
    | ⟨2, _⟩ => exact rhs_v11_2 _ _)
  rw [el, er]

/-! ## The third product, (·)·S: [32,128,64] × [32,64,64] → [32,128,64], contracting the left's last axis with the right's middle one

At output index (g, n, e) and contraction index `q` the left operand is read at (g, n, q), the right at (g, q, e). -/

theorem lhs_v19_0 (i : S32x128x64.Idx) (q : dot_S32x128x64_S32x64x64_S32x128x64_2_1_1_2_0_0.contr.Idx) :
    (dot_S32x128x64_S32x64x64_S32x128x64_2_1_1_2_0_0.lhsIdx i q 0).val = (i 0).val := by
  unfold DotDims.lhsIdx
  rw [dif_pos (show (0 : Fin S32x128x64.rank) ∈ dot_S32x128x64_S32x64x64_S32x128x64_2_1_1_2_0_0.lhsBatch by decide)]
  rfl
theorem lhs_v19_1 (i : S32x128x64.Idx) (q : dot_S32x128x64_S32x64x64_S32x128x64_2_1_1_2_0_0.contr.Idx) :
    (dot_S32x128x64_S32x64x64_S32x128x64_2_1_1_2_0_0.lhsIdx i q 1).val = (i 1).val := by
  unfold DotDims.lhsIdx
  rw [dif_neg (show ¬(1 : Fin S32x128x64.rank) ∈ dot_S32x128x64_S32x64x64_S32x128x64_2_1_1_2_0_0.lhsBatch by decide), dif_pos (show (1 : Fin S32x128x64.rank) ∈ dot_S32x128x64_S32x64x64_S32x128x64_2_1_1_2_0_0.lhsNonContracting by decide)]
  rfl
theorem lhs_v19_2 (i : S32x128x64.Idx) (q : dot_S32x128x64_S32x64x64_S32x128x64_2_1_1_2_0_0.contr.Idx) :
    (dot_S32x128x64_S32x64x64_S32x128x64_2_1_1_2_0_0.lhsIdx i q 2).val = (q ⟨0, by decide⟩).val :=
  dot_S32x128x64_S32x64x64_S32x128x64_2_1_1_2_0_0.lhsIdx_val_of_single rfl i q
theorem rhs_v19_0 (i : S32x128x64.Idx) (q : dot_S32x128x64_S32x64x64_S32x128x64_2_1_1_2_0_0.contr.Idx) :
    (dot_S32x128x64_S32x64x64_S32x128x64_2_1_1_2_0_0.rhsIdx i q 0).val = (i 0).val := by
  unfold DotDims.rhsIdx
  rw [dif_pos (show (0 : Fin S32x64x64.rank) ∈ dot_S32x128x64_S32x64x64_S32x128x64_2_1_1_2_0_0.rhsBatch by decide)]
  rfl
theorem rhs_v19_1 (i : S32x128x64.Idx) (q : dot_S32x128x64_S32x64x64_S32x128x64_2_1_1_2_0_0.contr.Idx) :
    (dot_S32x128x64_S32x64x64_S32x128x64_2_1_1_2_0_0.rhsIdx i q 1).val = (q ⟨0, by decide⟩).val :=
  dot_S32x128x64_S32x64x64_S32x128x64_2_1_1_2_0_0.rhsIdx_val_of_single rfl i q
theorem rhs_v19_2 (i : S32x128x64.Idx) (q : dot_S32x128x64_S32x64x64_S32x128x64_2_1_1_2_0_0.contr.Idx) :
    (dot_S32x128x64_S32x64x64_S32x128x64_2_1_1_2_0_0.rhsIdx i q 2).val = (i 2).val := by
  unfold DotDims.rhsIdx
  rw [dif_neg (show ¬(2 : Fin S32x64x64.rank) ∈ dot_S32x128x64_S32x64x64_S32x128x64_2_1_1_2_0_0.rhsBatch by decide), dif_pos (show (2 : Fin S32x64x64.rank) ∈ dot_S32x128x64_S32x64x64_S32x128x64_2_1_1_2_0_0.rhsNonContracting by decide)]
  rfl

/-- Into the zero splat, the third product at (g, n, e) is the sum over the 64 state rows d. -/
theorem v19_apply {φ₁ φ₂ : FTy} (a : FVec Ideal S32x128x64 φ₁) (b : FVec Ideal S32x64x64 φ₂) (g : Fin 32) (n : Fin 128) (e : Fin 64) :
    matmul dot_S32x128x64_S32x64x64_S32x128x64_2_1_1_2_0_0 none a b (constant S32x128x64 .f32 0x00000000#32) (ix3 g n e)
      = ∑ d : Fin 64, a (ix3 g n d) * b (ix3 g d e) := by
  show FloatOps.matmul dot_S32x128x64_S32x64x64_S32x128x64_2_1_1_2_0_0 none a b (constant S32x128x64 .f32 0x00000000#32) (ix3 g n e) = _
  rw [Ideal.matmul_constant_zero_apply, ← Equiv.sum_comp (contrEquiv1 dot_S32x128x64_S32x64x64_S32x128x64_2_1_1_2_0_0 64 rfl rfl).symm]
  refine Finset.sum_congr rfl fun d _ => ?_
  have hk := contrEquiv1_symm_val dot_S32x128x64_S32x64x64_S32x128x64_2_1_1_2_0_0 64 rfl rfl d
  have el : dot_S32x128x64_S32x64x64_S32x128x64_2_1_1_2_0_0.lhsIdx (ix3 g n e) ((contrEquiv1 dot_S32x128x64_S32x64x64_S32x128x64_2_1_1_2_0_0 64 rfl rfl).symm d) = ix3 g n d := funext fun c => Fin.ext (by
    match c with
    | ⟨0, _⟩ => exact lhs_v19_0 _ _
    | ⟨1, _⟩ => exact lhs_v19_1 _ _
    | ⟨2, _⟩ => exact (lhs_v19_2 _ _).trans hk)
  have er : dot_S32x128x64_S32x64x64_S32x128x64_2_1_1_2_0_0.rhsIdx (ix3 g n e) ((contrEquiv1 dot_S32x128x64_S32x64x64_S32x128x64_2_1_1_2_0_0 64 rfl rfl).symm d) = ix3 g d e := funext fun c => Fin.ext (by
    match c with
    | ⟨0, _⟩ => exact rhs_v19_0 _ _
    | ⟨1, _⟩ => exact (rhs_v19_1 _ _).trans hk
    | ⟨2, _⟩ => exact rhs_v19_2 _ _)
  rw [el, er]

/-! ## The state laid along the trunks: [64,64] → [1,64,64] → [32,64,64] -/

/-- The state viewed with a leading unit axis (the second view, to the same shape, changes nothing) and repeated
    along the 32 trunks reads, at (g, d, e), the state at (d, e): the trunk coordinate is dropped. -/
theorem state_apply {α : Type} (x : S64x64.Idx → α) (g : Fin 32) (d e : Fin 64) :
    broadcastTo S32x64x64 (shapeCast S1x64x64 (shapeCast S1x64x64 x shapeCasts_S64x64_S1x64x64) shapeCasts_S1x64x64_S1x64x64)
      broadcasts_S1x64x64_S32x64x64 (ix3 g d e) = x (ix2 d e) := by
  rw [shapeCast_self]
  rw [broadcastTo_apply _ broadcasts_S1x64x64_S32x64x64 (ix3 g d e) (ix3 (0 : Fin 1) d e) (fun c => by
    match c with
    | ⟨0, _⟩ => rfl
    | ⟨1, _⟩ => rfl
    | ⟨2, _⟩ => rfl)]
  exact shapeCast_ab_1ab_apply x shapeCasts_S64x64_S1x64x64 (0 : Fin 1) d e

/-! ## The payload at an index -/

/-- The payload's element (g, n, e): the three products chained, with nothing rounded between them. -/
theorem pay1_1_apply (q k v : Vec Ideal S32x128x64 .f32) (s : Vec Ideal S64x64 .f32) (g : Fin 32) (n : Fin 128) (e : Fin 64) :
    k1_pay1 (F := Ideal) q k v s (ix3 g n e)
      = ∑ d : Fin 64, (∑ m : Fin 128, (∑ d' : Fin 64, q (ix3 g n d') * k (ix3 g m d')) * v (ix3 g m d)) * s (ix2 d e) := by
  simp only [k1_pay1]
  rw [shapeCast_self q, shapeCast_self k, shapeCast_self v, shapeCast_self s, v19_apply]
  refine Finset.sum_congr rfl fun d _ => ?_
  rw [state_apply, truncf_apply, truncf_apply, v11_apply]
  refine congrArg (· * s (ix2 d e)) (Finset.sum_congr rfl fun m _ => ?_)
  rw [truncf_apply, truncf_apply, v9_apply]
  refine congrArg (· * v (ix3 g m d)) (Finset.sum_congr rfl fun d' _ => ?_)
  rw [truncf_apply, truncf_apply]

end Cert.KernelIdeal.Val

end
-- ==== Proof.Val.Arr1.lean ====
/-
  The second pallas_call's output array after its run, index by index: element (g, n, e) of the result is
  ∑ d, (∑ m, (∑ d', Q[g,n,d'] · K[g,m,d']) · V[g,m,d]) · S[d,e] over the arrays the region is entered with.
  Every grid point t writes back trunks 32 t … 32 t + 31 of that one function of the arrays, and the 64 blocks
  tile the array.
-/
import proofs.«104029_j52544629900005_1_alg».proof.Proof.KI.Reg1
import proofs.«104029_j52544629900005_1_alg».proof.Proof.Val.Pay1
import Idealize.ShloMosaic.Lib.Pipeline.Value
import Idealize.ShloMosaic.Lib.ValueIdx

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The arrays the region is entered with, at their literal shapes -/

/-- The 64 × 64 state. -/
abbrev inS1 (c : Dev nD) : S64x64.Idx → Elt Ideal .f32 := V c main_v0
/-- The reshaped Q, -/
abbrev inQ1 (c : Dev nD) : S2048x128x64.Idx → Elt Ideal .f32 := V c main_v1
/-- K -/
abbrev inK1 (c : Dev nD) : S2048x128x64.Idx → Elt Ideal .f32 := V c main_v2
/-- and V. -/
abbrev inV1 (c : Dev nD) : S2048x128x64.Idx → Elt Ideal .f32 := V c main_v3

theorem arr1_hz3 : (![0, 0, 0] : Fin 3 → Nat) = fun _ => 0 := funext fun a => by fin_cases a <;> rfl
theorem arr1_hz2 : (![0, 0] : Fin 2 → Nat) = fun _ => 0 := funext fun a => by fin_cases a <;> rfl

/-- The index maps over the grid: the state's block index is (0, 0) at every point; each trunk window's is (t, 0, 0). -/
theorem arr1_idx_facts : ∀ t : Fin cfg1.N,
    win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-! ## The input blocks at a point, read off the arrays -/

/-- Element (g', n, d) of the first trunk window's block at point t is element (32 t + g', n, d) of its array. -/
theorem arr1_iblk_1 (c : Dev nD) (t : Fin cfg1.N) (y : S32x128x64.Idx) (k : S2048x128x64.Idx)
    (h0 : (k 0).val = t.val * 32 + (y 0).val) (h1 : (k 1).val = (y 1).val) (h2 : (k 2).val = (y 2).val) :
    (iblk1 V c 1 t : Vec Ideal S32x128x64 .f32) y = (V c main_v1 : S2048x128x64.Idx → Elt Ideal .f32) k := by
  obtain ⟨-, -, e0, e1, e2, -⟩ := arr1_idx_facts t
  unfold iblk1
  rw [View.read_apply]
  show V c main_v1 _ = V c main_v1 _
  congr 1
  funext a
  apply Fin.ext
  match a with
  | ⟨0, _⟩ => show win1_1.index t 0 * 32 + 1 * (y 0).val = (k 0).val; rw [e0, h0]; omega
  | ⟨1, _⟩ => show win1_1.index t 1 * 128 + 1 * (y 1).val = (k 1).val; rw [e1, h1]; omega
  | ⟨2, _⟩ => show win1_1.index t 2 * 64 + 1 * (y 2).val = (k 2).val; rw [e2, h2]; omega

/-- The same for the second trunk window. -/
theorem arr1_iblk_2 (c : Dev nD) (t : Fin cfg1.N) (y : S32x128x64.Idx) (k : S2048x128x64.Idx)
    (h0 : (k 0).val = t.val * 32 + (y 0).val) (h1 : (k 1).val = (y 1).val) (h2 : (k 2).val = (y 2).val) :
    (iblk1 V c 2 t : Vec Ideal S32x128x64 .f32) y = (V c main_v2 : S2048x128x64.Idx → Elt Ideal .f32) k := by
  obtain ⟨-, -, -, -, -, e0, e1, e2, -⟩ := arr1_idx_facts t
  unfold iblk1
  rw [View.read_apply]
  show V c main_v2 _ = V c main_v2 _
  congr 1
  funext a
  apply Fin.ext
  match a with
  | ⟨0, _⟩ => show win1_2.index t 0 * 32 + 1 * (y 0).val = (k 0).val; rw [e0, h0]; omega
  | ⟨1, _⟩ => show win1_2.index t 1 * 128 + 1 * (y 1).val = (k 1).val; rw [e1, h1]; omega
  | ⟨2, _⟩ => show win1_2.index t 2 * 64 + 1 * (y 2).val = (k 2).val; rw [e2, h2]; omega

/-- The same for the third trunk window. -/
theorem arr1_iblk_3 (c : Dev nD) (t : Fin cfg1.N) (y : S32x128x64.Idx) (k : S2048x128x64.Idx)
    (h0 : (k 0).val = t.val * 32 + (y 0).val) (h1 : (k 1).val = (y 1).val) (h2 : (k 2).val = (y 2).val) :
    (iblk1 V c 3 t : Vec Ideal S32x128x64 .f32) y = (V c main_v3 : S2048x128x64.Idx → Elt Ideal .f32) k := by
  obtain ⟨-, -, -, -, -, -, -, -, e0, e1, e2, -⟩ := arr1_idx_facts t
  unfold iblk1
  rw [View.read_apply]
  show V c main_v3 _ = V c main_v3 _
  congr 1
  funext a
  apply Fin.ext
  match a with
  | ⟨0, _⟩ => show win1_3.index t 0 * 32 + 1 * (y 0).val = (k 0).val; rw [e0, h0]; omega
  | ⟨1, _⟩ => show win1_3.index t 1 * 128 + 1 * (y 1).val = (k 1).val; rw [e1, h1]; omega
  | ⟨2, _⟩ => show win1_3.index t 2 * 64 + 1 * (y 2).val = (k 2).val; rw [e2, h2]; omega

/-- The state window's one block is its whole array, at every point. -/
theorem arr1_iblk_0 (c : Dev nD) (t : Fin cfg1.N) :
    (iblk1 V c 0 t : Vec Ideal S64x64 .f32) = (V c main_v0 : S64x64.Idx → Elt Ideal .f32) := by
  obtain ⟨e0, e1, -⟩ := arr1_idx_facts t
  funext y
  unfold iblk1
  rw [View.read_apply]
  show V c main_v0 _ = V c main_v0 _
  congr 1
  funext a
  apply Fin.ext
  match a with
  | ⟨0, _⟩ => show win1_0.index t 0 * 64 + 1 * (y 0).val = (y 0).val; rw [e0]; omega
  | ⟨1, _⟩ => show win1_0.index t 1 * 64 + 1 * (y 1).val = (y 1).val; rw [e1]; omega

/-! ## The closed form -/

/-- Element (g, n, e) of the result, from the four arrays: ∑ d, (∑ m, (∑ d', Q[g,n,d'] · K[g,m,d']) · V[g,m,d]) · S[d,e]. -/
def arr1_elem (Q K W : S2048x128x64.Idx → Elt Ideal .f32) (S : S64x64.Idx → Elt Ideal .f32)
    (g : Fin 2048) (n : Fin 128) (e : Fin 64) : Elt Ideal .f32 :=
  ∑ d : Fin 64, (∑ m : Fin 128, (∑ d' : Fin 64, Q (ix3 g n d') * K (ix3 g m d')) * W (ix3 g m d)) * S (ix2 d e)

/-- The output array as one function of the arrays the region is entered with. -/
def arr1_G (c : Dev nD) : S2048x128x64.Idx → Elt Ideal .f32 := fun j =>
  arr1_elem (inQ1 V c) (inK1 V c) (inV1 V c) (inS1 V c) (j 0) (j 1) (j 2)

/-- The payload on blocks that are trunk gg's rows of three arrays, with the state given whole. -/
theorem arr1_pay_at (q k v : Vec Ideal S32x128x64 .f32) (s : Vec Ideal S64x64 .f32)
    (Q K W : S2048x128x64.Idx → Elt Ideal .f32) (S : S64x64.Idx → Elt Ideal .f32)
    (g' : Fin 32) (gg : Fin 2048) (n : Fin 128) (e : Fin 64)
    (hq : ∀ n d', q (ix3 g' n d') = Q (ix3 gg n d'))
    (hk : ∀ m d', k (ix3 g' m d') = K (ix3 gg m d'))
    (hv : ∀ m d, v (ix3 g' m d) = W (ix3 gg m d))
    (hs : s = S) :
    k1_pay1 (F := Ideal) q k v s (ix3 g' n e) = arr1_elem Q K W S gg n e := by
  rw [pay1_1_apply]
  subst hs
  simp only [hq, hk, hv]
  rfl

/-- The payload at a block index j, on blocks that at every block index read the arrays 32 t trunks further on,
    is the closed form at the array index i that lies 32 t trunks past j. -/
theorem arr1_pay_blk (q k v : Vec Ideal S32x128x64 .f32) (s : Vec Ideal S64x64 .f32)
    (Q K W : S2048x128x64.Idx → Elt Ideal .f32) (S : S64x64.Idx → Elt Ideal .f32) (t : Nat)
    (hq : ∀ (y : S32x128x64.Idx) (i : S2048x128x64.Idx),
      (i 0).val = t * 32 + (y 0).val → (i 1).val = (y 1).val → (i 2).val = (y 2).val → q y = Q i)
    (hk : ∀ (y : S32x128x64.Idx) (i : S2048x128x64.Idx),
      (i 0).val = t * 32 + (y 0).val → (i 1).val = (y 1).val → (i 2).val = (y 2).val → k y = K i)
    (hv : ∀ (y : S32x128x64.Idx) (i : S2048x128x64.Idx),
      (i 0).val = t * 32 + (y 0).val → (i 1).val = (y 1).val → (i 2).val = (y 2).val → v y = W i)
    (hs : s = S) (j : S32x128x64.Idx) (i : S2048x128x64.Idx)
    (h0 : (i 0).val = t * 32 + (j 0).val) (h1 : (i 1).val = (j 1).val) (h2 : (i 2).val = (j 2).val) :
    k1_pay1 (F := Ideal) q k v s j = arr1_elem Q K W S (i 0) (i 1) (i 2) := by
  have e1 : (i 1 : Fin 128) = j 1 := Fin.ext h1
  have e2 : (i 2 : Fin 64) = j 2 := Fin.ext h2
  rw [e1, e2]
  refine (congrArg (k1_pay1 (F := Ideal) q k v s) (eq_ix3 j)).trans ?_
  exact arr1_pay_at q k v s Q K W S (j 0) (i 0) (j 1) (j 2) (fun n d' => hq _ _ h0 rfl rfl) (fun m d' => hk _ _ h0 rfl rfl)
    (fun m d => hv _ _ h0 rfl rfl) hs

/-- What point t writes back is block t of the closed form. -/
theorem arr1_flushed_eq (c : Dev nD) (t : Fin cfg1.N) :
    (dat1 (F := Ideal) V c).flushed 4 t = ((cfg1.win 4).blk t).view.read (Elt Ideal) (arr1_G V c) := by
  show (cfg1.win 4).cut (grid1.coords t) ((dat1 (F := Ideal) V c).after 4 t) = _
  rw [after1_4]
  unfold out1_4
  rw [View.canon_unit_zero arr1_hz3]
  simp only [View.ld_unit_zero (S := S32x128x64) arr1_hz3, View.ld_unit_zero (S := S64x64) arr1_hz2]
  obtain ⟨-, -, -, -, -, -, -, -, -, -, -, e0, e1, e2⟩ := arr1_idx_facts t
  funext j
  show k1_pay1 (F := Ideal) (iblk1 V c 1 t) (iblk1 V c 2 t) (iblk1 V c 3 t) (iblk1 V c 0 t) j
    = arr1_G V c (((cfg1.win 4).blk t).view.emb j)
  refine arr1_pay_blk _ _ _ _ (inQ1 V c) (inK1 V c) (inV1 V c) (inS1 V c) t.val
    (fun y i h0 h1 h2 => arr1_iblk_1 V c t y i h0 h1 h2) (fun y i h0 h1 h2 => arr1_iblk_2 V c t y i h0 h1 h2)
    (fun y i h0 h1 h2 => arr1_iblk_3 V c t y i h0 h1 h2) (arr1_iblk_0 V c t) j _ ?_ ?_ ?_
  · show win1_4.index t 0 * 32 + 1 * (j 0).val = t.val * 32 + (j 0).val; rw [e0]; omega
  · show win1_4.index t 1 * 128 + 1 * (j 1).val = (j 1).val; rw [e1]; omega
  · show win1_4.index t 2 * 64 + 1 * (j 2).val = (j 2).val; rw [e2]; omega

/-! ## The blocks tile the array -/

/-- An index of the array is in point t's block iff each coordinate is in the block's range on its axis. -/
theorem arr1_mem_blk (t : Fin cfg1.N) (i : S2048x128x64.Idx) :
    i ∈ ((cfg1.win 4).blk t).view.set ↔ ∀ a : Fin 3, win1_4.index t a * S32x128x64.size a ≤ (i a).val
      ∧ (i a).val < win1_4.index t a * S32x128x64.size a + S32x128x64.size a := by
  show i ∈ ((View.whole main_v4).slice (win1_4.rect t)).set ↔ _
  rw [View.set_slice_whole, Rect.mem_set_unit]
  exact Iff.rfl

/-- Index (g, n, e) lies in the block of point g / 32, which is written back. -/
theorem arr1_cover (i : S2048x128x64.Idx) :
    ∃ t : Fin cfg1.N, (cfg1.win 4).flush t = true ∧ i ∈ ((cfg1.win 4).blk t).view.set := by
  have hi0 : (i 0).val < 2048 := (i 0).isLt
  have hi1 : (i 1).val < 128 := (i 1).isLt
  have hi2 : (i 2).val < 64 := (i 2).isLt
  have hN : cfg1.N = 64 := by decide
  obtain ⟨t, ht⟩ : ∃ t : Fin cfg1.N, t.val = (i 0).val / 32 := ⟨⟨(i 0).val / 32, by rw [hN]; omega⟩, rfl⟩
  refine ⟨t, flush1_4 t, ?_⟩
  rw [arr1_mem_blk]
  obtain ⟨-, -, -, -, -, -, -, -, -, -, -, e0, e1, e2⟩ := arr1_idx_facts t
  intro a
  match a with
  | ⟨0, _⟩ => show win1_4.index t 0 * 32 ≤ (i 0).val ∧ (i 0).val < win1_4.index t 0 * 32 + 32; rw [e0, ht]; omega
  | ⟨1, _⟩ => show win1_4.index t 1 * 128 ≤ (i 1).val ∧ (i 1).val < win1_4.index t 1 * 128 + 128; rw [e1]; omega
  | ⟨2, _⟩ => show win1_4.index t 2 * 64 ≤ (i 2).val ∧ (i 2).val < win1_4.index t 2 * 64 + 64; rw [e2]; omega

/-! ## The array after the run -/

/-- The output array after the last point is the closed form. -/
theorem arr1_eq (c : Dev nD) : (dat1 (F := Ideal) V c).arrAt 4 cfg1.N = arr1_G V c :=
  (dat1 (F := Ideal) V c).arrAt_eq_of_cover 4 (arr1_G V c) (fun t _ => arr1_flushed_eq V c t) arr1_cover

/-- Element (g, n, e) of the output array after the run. -/
theorem arr1_out (c : Dev nD) (g : Fin 2048) (n : Fin 128) (e : Fin 64) :
    ((dat1 (F := Ideal) V c).arrAt 4 cfg1.N : S2048x128x64.Idx → Elt Ideal .f32) (ix3 g n e)
      = ∑ d : Fin 64, (∑ m : Fin 128, (∑ d' : Fin 64, inQ1 V c (ix3 g n d') * inK1 V c (ix3 g m d')) * inV1 V c (ix3 g m d))
          * inS1 V c (ix2 d e) := by
  rw [arr1_eq]
  rfl

end Cert.KernelIdeal.Val

end
-- ==== Proof.Val.Final.lean ====
/- The kernel's result against the reference, at the ideal values. With Q, K, V the three [262144, 64] arguments, the
   reference's result is out[p, e] = ∑ d, Qi[p, d] · S[d, e], where S[d, e] = ∑ r, V[r, d] · K[r, e] is the global
   state and, the rows taken as 2048 trunks of 128, Qi[g·128 + n, d] = ∑ m, (∑ d', Q[g·128 + n, d'] · K[g·128 + m, d'])
   · V[g·128 + m, d]. The kernel's result is the reshape of its second call's output array, whose element (g, n, e) is
   that same chained product of the reshaped arguments with the first call's output array, which is S. Row p of the
   result is place p % 128 of trunk p / 128; read there, the two sides are the same sums term by term. -/
import proofs.«104029_j52544629900005_1_alg».proof.Proof.KI.RunVal
import proofs.«104029_j52544629900005_1_alg».proof.Proof.Val.Arr0
import proofs.«104029_j52544629900005_1_alg».proof.Proof.Val.Arr1
import proofs.«104029_j52544629900005_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Cert.ReferenceIdeal.Read

/-! ## Rows and trunks

The [262144, 64] arrays are 2048 trunks of 128 rows: row p is place p % 128 of trunk p / 128. -/

/-- The trunk a row lies in … -/
abbrev trunk (p : Fin 262144) : Fin 2048 := ⟨p.val / 128, by have := p.isLt; omega⟩
/-- … and its place there. -/
abbrev place (p : Fin 262144) : Fin 128 := ⟨p.val % 128, Nat.mod_lt _ (by decide)⟩

/-! ## The reference's operand indices, by coordinates -/

/-- The reference's last product reads its left operand, the reshape of the trunks' result, at row p and column k:
    that is trunk p / 128, place p % 128, column k. -/
theorem idx5_lidx7 (p : Fin 262144) (e k : Fin 64) :
    idx_main_v5 (lidx_main_v7 (ix2 p e) k) = ix3 (trunk p) (place p) k := by
  have hp := p.isLt
  have hk := k.isLt
  funext a
  apply Fin.ext
  match a with
  | ⟨0, _⟩ => show (p.val * 64 + k.val) / 8192 = p.val / 128; omega
  | ⟨1, _⟩ => show (p.val * 64 + k.val) / 64 % 128 = p.val % 128; omega
  | ⟨2, _⟩ => show (p.val * 64 + k.val) % 64 = k.val; omega

theorem lidx4_ix3 (g : Fin 2048) (n : Fin 128) (k : Fin 64) (m : Fin 128) : lidx_main_v4 (ix3 g n k) m = ix3 g n m := by
  funext a; match a with | ⟨0, _⟩ => rfl | ⟨1, _⟩ => rfl | ⟨2, _⟩ => rfl
theorem ridx4_ix3 (g : Fin 2048) (n : Fin 128) (k : Fin 64) (m : Fin 128) : ridx_main_v4 (ix3 g n k) m = ix3 g m k := by
  funext a; match a with | ⟨0, _⟩ => rfl | ⟨1, _⟩ => rfl | ⟨2, _⟩ => rfl
theorem lidx3_ix3 (g : Fin 2048) (n m : Fin 128) (d' : Fin 64) : lidx_main_v3 (ix3 g n m) d' = ix3 g n d' := by
  funext a; match a with | ⟨0, _⟩ => rfl | ⟨1, _⟩ => rfl | ⟨2, _⟩ => rfl
theorem ridx3_ix3 (g : Fin 2048) (n m : Fin 128) (d' : Fin 64) : ridx_main_v3 (ix3 g n m) d' = ix3 g m d' := by
  funext a; match a with | ⟨0, _⟩ => rfl | ⟨1, _⟩ => rfl | ⟨2, _⟩ => rfl
theorem lidx6_ridx7 (p : Fin 262144) (e k : Fin 64) (r : Fin 262144) : lidx_main_v6 (ridx_main_v7 (ix2 p e) k) r = ix2 r k := by
  funext a; match a with | ⟨0, _⟩ => rfl | ⟨1, _⟩ => rfl
theorem ridx6_ridx7 (p : Fin 262144) (e k : Fin 64) (r : Fin 262144) : ridx_main_v6 (ridx_main_v7 (ix2 p e) k) r = ix2 r e := by
  funext a; match a with | ⟨0, _⟩ => rfl | ⟨1, _⟩ => rfl

/-! ## The reference at an index -/

/-- The reference's result at row p, column e, with every product read at its operands' coordinates: the sum over d of
    the trunk's chained products at (p / 128, p % 128, d) times the global state at (d, e). -/
theorem ref_at (Q K V : (⟨S262144x64, .f32⟩ : BufTy).Contents (Elt Ideal)) (p : Fin 262144) (e : Fin 64) :
    val_main_v7 (F := Ideal) Q K V (ix2 p e)
      = ∑ d : Fin 64, (∑ m : Fin 128, (∑ d' : Fin 64,
            val_main_v0 (F := Ideal) Q (ix3 (trunk p) (place p) d') * val_main_v1 (F := Ideal) K (ix3 (trunk p) m d'))
          * val_main_v2 (F := Ideal) V (ix3 (trunk p) m d))
        * (∑ r : Fin 262144, V (ix2 r d) * K (ix2 r e)) := by
  rw [val_main_v7_apply]
  refine Finset.sum_congr rfl fun d _ => ?_
  rw [val_main_v5_apply, idx5_lidx7, val_main_v4_apply, val_main_v6_apply]
  refine congrArg₂ (· * ·) (Finset.sum_congr rfl fun m _ => ?_) (Finset.sum_congr rfl fun r _ => ?_)
  · rw [lidx4_ix3, ridx4_ix3, val_main_v3_apply]
    refine congrArg (· * val_main_v2 (F := Ideal) V (ix3 (trunk p) m d)) (Finset.sum_congr rfl fun d' _ => ?_)
    rw [lidx3_ix3, ridx3_ix3]
  · rw [lidx6_ridx7, ridx6_ridx7]

/-! ## The kernel's result against the reference, over arrays as variables -/

/-- Let `out` be the reshape of an array `arr` of 2048 trunks whose element (g, n, e) is the chained product of the
    reshapes `A1`, `A2`, `A3` of Q, K, V with a state `A0`, and let the state's element (d, e) be ∑ r, V[r,d] · K[r,e].
    Then `out` is the reference's value of Q, K, V: row p of `out` is place p % 128 of trunk p / 128 of `arr`, and there
    the two are the same sums term by term. -/
theorem result_eq_of
    (Q K V out : (⟨S262144x64, .f32⟩ : BufTy).Contents (Elt Ideal))
    (A1 A2 A3 arr : (⟨S2048x128x64, .f32⟩ : BufTy).Contents (Elt Ideal))
    (A0 : (⟨S64x64, .f32⟩ : BufTy).Contents (Elt Ideal))
    (hout : out = shapeCast _ arr shapeCasts_S2048x128x64_S262144x64)
    (harr : ∀ (g : Fin 2048) (n : Fin 128) (e : Fin 64), arr (ix3 g n e)
        = ∑ d : Fin 64, (∑ m : Fin 128, (∑ d' : Fin 64, A1 (ix3 g n d') * A2 (ix3 g m d')) * A3 (ix3 g m d)) * A0 (ix2 d e))
    (h1 : A1 = shapeCast _ Q shapeCasts_S262144x64_S2048x128x64)
    (h2 : A2 = shapeCast _ K shapeCasts_S262144x64_S2048x128x64)
    (h3 : A3 = shapeCast _ V shapeCasts_S262144x64_S2048x128x64)
    (h0 : ∀ d e : Fin 64, A0 (ix2 d e) = ∑ r : Fin 262144, V (ix2 r d) * K (ix2 r e)) :
    out = val_main_v7 (F := Ideal) Q K V := by
  have h1' : A1 = val_main_v0 (F := Ideal) Q := h1
  have h2' : A2 = val_main_v1 (F := Ideal) K := h2
  have h3' : A3 = val_main_v2 (F := Ideal) V := h3
  subst h1' h2' h3' hout
  funext i
  obtain ⟨p, e, rfl⟩ : ∃ (p : Fin 262144) (e : Fin 64), i = ix2 p e := ⟨i 0, i 1, eq_ix2 i⟩
  have hp := p.isLt
  rw [ref_at, shapeCast_apply arr shapeCasts_S2048x128x64_S262144x64 (ix2 p e) (ix3 (trunk p) (place p) e) (by
    rw [Shape.rowMajor_val_three, Shape.rowMajor_val_two]
    show (p.val / 128 * 128 + p.val % 128) * 64 + e.val = p.val * 64 + e.val
    omega), harr]
  refine Finset.sum_congr rfl fun d _ => ?_
  rw [h0]

/-! ## The result -/

/-- The kernel's result array is the reference's value of the three arguments. -/
theorem result_eq (m : (ℓ : Loc nD τ sig) → Buf (Elt Ideal) ℓ) (c : Dev nD) :
    Fr.W4 (F := Ideal) m c (Proc.devRef .tc main_v5)
      = Cert.ReferenceIdeal.Read.val_main_v7 (F := Ideal) (m ((c : Thread nD τ).loc main_arg0)) (m ((c : Thread nD τ).loc main_arg1)) (m ((c : Thread nD τ).loc main_arg2)) :=
  result_eq_of (m ((c : Thread nD τ).loc main_arg0)) (m ((c : Thread nD τ).loc main_arg1)) (m ((c : Thread nD τ).loc main_arg2)) _
    (Fr.E2 m c main_v1) (Fr.E2 m c main_v2) (Fr.E2 m c main_v3) ((Fr.dat1 (F := Ideal) (Fr.E2 m) c).arrAt 4 cfg1.N) (Fr.E2 m c main_v0)
    (Fr.W4_main_v5 m c)
    (fun g n e => arr1_out (Fr.E2 m) c g n e)
    (Fr.E2_main_v1 m c) (Fr.E2_main_v2 m c) (Fr.E2_main_v3 m c)
    (fun d e => (congrFun (Fr.E2_main_v0 m c) (ix2 d e)).trans (arr0_out (Fr.E0 m) c d e))

end Cert.KernelIdeal.Val

end
-- ==== Proof.lean ====
/-
  The kernel computes chunked linear attention: the global state S = Vᵀ K (one pallas_call, accumulated over 32 blocks
  of 8192 rows in a scratch buffer that is carried from grid point to grid point), then, per block of 32 trunks of 128
  rows, out = ((Q_t K_tᵀ) V_t) S (a second pallas_call), between reshapes of the arguments. The reference computes the
  same three products with jnp on the host. Over the extended reals a change of float format is the identity, a matrix
  product into a zero accumulator is the plain sum, and the state's accumulation block by block is the one sum over all
  rows regrouped (addition of extended reals is commutative and associative; no finiteness is needed). So the two
  programs compute one function of the arguments, index by index.

  The frames: each pallas_call is run point by point against its proof data (Proof/KI, Proof/K: the first one's invariant
  tracks the scratch's running sum), @main as the sequence pallas_call, reshapes, pallas_call, reshape; the reference's run
  is its generated run. The value: Proof/Val reads the two output arrays index by index and compares with the reference's
  stages (the generated read-at-an-index lemmas).
-/
import proofs.«104029_j52544629900005_1_alg».proof.Defs
import proofs.«104029_j52544629900005_1_alg».proof.Proof.Gen.Kernel
import proofs.«104029_j52544629900005_1_alg».proof.Proof.Gen.KernelIdeal
import proofs.«104029_j52544629900005_1_alg».proof.Proof.Gen.ReferenceIdeal
import proofs.«104029_j52544629900005_1_alg».proof.Proof.Gen.Pre_finite_inputs
import proofs.«104029_j52544629900005_1_alg».proof.Proof.Gen.ReferenceIdeal.Run
import proofs.«104029_j52544629900005_1_alg».proof.Proof.Gen.ReferenceIdeal.Read
import proofs.«104029_j52544629900005_1_alg».proof.Proof.K.Run
import proofs.«104029_j52544629900005_1_alg».proof.Proof.KI.RunVal
import proofs.«104029_j52544629900005_1_alg».proof.Proof.Val.Final
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the same result: the kernel's run leaves its result buffer at the fold's last
    contents, which are the reference's last stage of the arguments (`Val.result_eq`); the reference's run ends at that
    stage of its own arguments, which agree. -/
theorem algebraic : Cert.algebraic_KernelIdeal_ReferenceIdeal := by
  intro m ρ m' ρ' _ hagree
  refine ⟨fun c => Cert.KernelIdeal.Fr.W4 (F := Ideal) m c (Proc.devRef .tc Cert.KernelIdeal.main_v5), ?_, ?_⟩
  · exact (θ_run Cert.KernelIdeal.defs _ _).mono (fun _ h c =>
      ⟨h c _ (Cert.KernelIdeal.Fr.mem_uc Cert.KernelIdeal.main_v5 (by decide)),
       (h c _ (Cert.KernelIdeal.Fr.mem_uc Cert.KernelIdeal.main_arg0 (by decide))).trans (Cert.KernelIdeal.Fr.W4_main_arg0 m c),
       (h c _ (Cert.KernelIdeal.Fr.mem_uc Cert.KernelIdeal.main_arg1 (by decide))).trans (Cert.KernelIdeal.Fr.W4_main_arg1 m c),
       (h c _ (Cert.KernelIdeal.Fr.mem_uc Cert.KernelIdeal.main_arg2 (by decide))).trans (Cert.KernelIdeal.Fr.W4_main_arg2 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.KernelIdeal.Val.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
